-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S128x8192 : Shape := ⟨2, ![128, 8192]⟩
abbrev S128 : Shape := ⟨1, ![128]⟩
abbrev S8192x128 : Shape := ⟨2, ![8192, 128]⟩
abbrev S8192 : Shape := ⟨1, ![8192]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S128 : S_.BroadcastsInDim S128 (![] : Fin 0 → Fin S128.rank)
  reducesTo_S128_S_d0 : S128.ReducesTo [0] S_
  bcast_S_S8192x128 : S_.BroadcastsInDim S8192x128 (![] : Fin 0 → Fin S8192x128.rank)
  reducesTo_S8192x128_S_d0_1 : S8192x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S128 .f32) (main_arg6 : FVec F S128 .f32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4096x64x128 .f32) (main_arg1 : FVec F S128x8192 .f32) (main_arg2 : FVec F S128 .f32) (main_arg3 : FVec F S8192x128 .f32) (main_arg4 : FVec F S8192 .f32) (main_arg5 : FVec F S128 .f32) (main_arg6 : FVec F S128 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg4 main_arg5 main_arg6 main_v13 main_v16
-- ==== Kernel.lean ====
abbrev S4096x64x128 : Shape := ⟨3, ![4096, 64, 128]⟩
abbrev S128x8192 : Shape := ⟨2, ![128, 8192]⟩
abbrev S128 : Shape := ⟨1, ![128]⟩
abbrev S8192x128 : Shape := ⟨2, ![8192, 128]⟩
abbrev S8192 : Shape := ⟨1, ![8192]⟩
abbrev S64x64x128 : Shape := ⟨3, ![64, 64, 128]⟩
abbrev S64x64x64 : Shape := ⟨3, ![64, 64, 64]⟩
abbrev S64x64 : Shape := ⟨2, ![64, 64]⟩
abbrev S64x64x1 : Shape := ⟨3, ![64, 64, 1]⟩
abbrev S64x8192 : Shape := ⟨2, ![64, 8192]⟩
abbrev S64x128 : Shape := ⟨2, ![64, 128]⟩
abbrev S1x128 : Shape := ⟨2, ![1, 128]⟩
abbrev S1x8192 : Shape := ⟨2, ![1, 8192]⟩
abbrev S1x1x128 : Shape := ⟨3, ![1, 1, 128]⟩

abbrev nBuf : Space → Nat
  | .hbm => 10
  | .vmem => 10
  | .smem => 0
  | _ => 0

abbrev bufTy : (tb : Table) → Fin (tcTables nBuf tb) → BufTy
  | .hbm, ⟨0, _⟩ => ⟨S4096x64x128, .f32⟩
  | .hbm, ⟨1, _⟩ => ⟨S128x8192, .f32⟩
  | .hbm, ⟨2, _⟩ => ⟨S128, .f32⟩
  | .hbm, ⟨3, _⟩ => ⟨S8192x128, .f32⟩
  | .hbm, ⟨4, _⟩ => ⟨S8192, .f32⟩
  | .hbm, ⟨5, _⟩ => ⟨S128, .f32⟩
  | .hbm, ⟨6, _⟩ => ⟨S128, .f32⟩
  | .hbm, ⟨7, _⟩ => ⟨S8192x128, .f32⟩
  | .hbm, ⟨8, _⟩ => ⟨S128x8192, .f32⟩
  | .hbm, ⟨9, _⟩ => ⟨S4096x64x128, .f32⟩
  | .local _ .vmem, ⟨0, _⟩ => ⟨S64x64x128, .f32⟩
  | .local _ .vmem, ⟨1, _⟩ => ⟨S64x64x128, .f32⟩
  | .local _ .vmem, ⟨2, _⟩ => ⟨S8192x128, .f32⟩
  | .local _ .vmem, ⟨3, _⟩ => ⟨S128, .f32⟩
  | .local _ .vmem, ⟨4, _⟩ => ⟨S128x8192, .f32⟩
  | .local _ .vmem, ⟨5, _⟩ => ⟨S8192, .f32⟩
  | .local _ .vmem, ⟨6, _⟩ => ⟨S128, .f32⟩
  | .local _ .vmem, ⟨7, _⟩ => ⟨S128, .f32⟩
  | .local _ .vmem, ⟨8, _⟩ => ⟨S64x64x128, .f32⟩
  | .local _ .vmem, ⟨9, _⟩ => ⟨S64x64x128, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x8192_S8192x128_1_0 : S128x8192.Transposes [1, 0] S8192x128
  transposes_S8192x128_S128x8192_1_0 : S8192x128.Transposes [1, 0] S128x8192
  inb_S64x64x128_S64x64x128_0_0_0 : ∀ a, (![0, 0, 0] : Fin 3 → Nat) a + S64x64x128.size a ≤ S64x64x128.size a
  h_S64x64x128 : 0 < S64x64x128.numel
  bitsLt_bf16_f32 : FTy.bits .bf16 < FTy.bits .f32
  reduces_S64x64x64_S64x64 : S64x64x64.Reduces [2] S64x64
  shapeCasts_S64x64_S64x64x1 : S64x64.ShapeCasts S64x64x1
  broadcasts_S64x64x1_S64x64x64 : S64x64x1.Broadcasts S64x64x64
  shapeCasts_S64x64x128_S64x8192 : S64x64x128.ShapeCasts S64x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S64x8192 : S1x8192.Broadcasts S64x8192
  shapeCasts_S64x8192_S64x64x128 : S64x8192.ShapeCasts S64x64x128
  reduces_S64x64x128_S64x64 : S64x64x128.Reduces [2] S64x64
  broadcasts_S64x64x1_S64x64x128 : S64x64x1.Broadcasts S64x64x128
  shapeCasts_S128_S1x1x128 : S128.ShapeCasts S1x1x128
  broadcasts_S1x1x128_S64x64x128 : S1x1x128.Broadcasts S64x64x128
  dot_S64x64x128_S64x64x128_S64x64x64_2_2_1_1_0_0_wf : DotDims.WF S64x64x128 S64x64x128 S64x64x64 [2] [2] [1] [1] [0] [0]
  dot_S64x64x64_S64x64x128_S64x64x128_2_1_1_2_0_0_wf : DotDims.WF S64x64x64 S64x64x128 S64x64x128 [2] [1] [1] [2] [0] [0]
  dot_S64x8192_S8192x128_S64x128_1_0_0_1_n_n_wf : DotDims.WF S64x8192 S8192x128 S64x128 [1] [0] [0] [1] [] []
  dot_S64x128_S128x8192_S64x8192_1_0_0_1_n_n_wf : DotDims.WF S64x128 S128x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S4096x64x128.size a
  hwx0_0 : ∀ i : grid0.Coords, EltTy.bits .f32 = 32 ∨ (Rect.block (s := S4096x64x128) S64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S128x8192.size a
  hwx0_3 : ∀ i : grid0.Coords, EltTy.bits .f32 = 32 ∨ (Rect.block (s := S128x8192) S128x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S8192.size a
  hwx0_4 : ∀ i : grid0.Coords, EltTy.bits .f32 = 32 ∨ (Rect.block (s := S8192) S8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x64x128.size a ≤ S4096x64x128.size a
  hwx0_7 : ∀ i : grid0.Coords, EltTy.bits .f32 = 32 ∨ (Rect.block (s := S4096x64x128) S64x64x128.size (cc0_transform_7 i) (hinb0_7 i)).WholeWords (EltTy.packing .f32)

variable [Facts₀]

def dot_S64x64x128_S64x64x128_S64x64x64_2_2_1_1_0_0 : DotDims S64x64x128 S64x64x128 S64x64x64 where
  lhsContracting := [2]
  rhsContracting := [2]
  lhsNonContracting := [1]
  rhsNonContracting := [1]
  lhsBatch := [0]
  rhsBatch := [0]
  wf := dot_S64x64x128_S64x64x128_S64x64x64_2_2_1_1_0_0_wf
def dot_S64x64x64_S64x64x128_S64x64x128_2_1_1_2_0_0 : DotDims S64x64x64 S64x64x128 S64x64x128 where
  lhsContracting := [2]
  rhsContracting := [1]
  lhsNonContracting := [1]
  rhsNonContracting := [2]
  lhsBatch := [0]
  rhsBatch := [0]
  wf := dot_S64x64x64_S64x64x128_S64x64x128_2_1_1_2_0_0_wf
def dot_S64x8192_S8192x128_S64x128_1_0_0_1_n_n : DotDims S64x8192 S8192x128 S64x128 where
  lhsContracting := [1]
  rhsContracting := [0]
  lhsNonContracting := [0]
  rhsNonContracting := [1]
  lhsBatch := []
  rhsBatch := []
  wf := dot_S64x8192_S8192x128_S64x128_1_0_0_1_n_n_wf
def dot_S64x128_S128x8192_S64x8192_1_0_0_1_n_n : DotDims S64x128 S128x8192 S64x8192 where
  lhsContracting := [1]
  rhsContracting := [0]
  lhsNonContracting := [0]
  rhsNonContracting := [1]
  lhsBatch := []
  rhsBatch := []
  wf := dot_S64x128_S128x8192_S64x8192_1_0_0_1_n_n_wf

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S64x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S128x8192 : Shape := ⟨2, ![128, 8192]⟩
abbrev S128 : Shape := ⟨1, ![128]⟩
abbrev S8192x128 : Shape := ⟨2, ![8192, 128]⟩
abbrev S8192 : Shape := ⟨1, ![8192]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩
abbrev S4096x8192 : Shape := ⟨2, ![4096, 8192]⟩
abbrev S4096x128 : Shape := ⟨2, ![4096, 128]⟩
abbrev S1x128 : Shape := ⟨2, ![1, 128]⟩
abbrev S1x8192 : Shape := ⟨2, ![1, 8192]⟩
abbrev S1x1x128 : Shape := ⟨3, ![1, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S128x8192, .f32⟩
  | .hbm, ⟨2, _⟩ => ⟨S128, .f32⟩
  | .hbm, ⟨3, _⟩ => ⟨S8192x128, .f32⟩
  | .hbm, ⟨4, _⟩ => ⟨S8192, .f32⟩
  | .hbm, ⟨5, _⟩ => ⟨S128, .f32⟩
  | .hbm, ⟨6, _⟩ => ⟨S128, .f32⟩
  | .hbm, ⟨7, _⟩ => ⟨S4096x64x64, .f32⟩
  | .hbm, ⟨8, _⟩ => ⟨S_, .f32⟩
  | .hbm, ⟨9, _⟩ => ⟨S4096x64x64, .f32⟩
  | .hbm, ⟨10, _⟩ => ⟨S4096x64x64, .f32⟩
  | .hbm, ⟨11, _⟩ => ⟨S_, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x64, .f32⟩
  | .hbm, ⟨16, _⟩ => ⟨S4096x64x1, .f32⟩
  | .hbm, ⟨17, _⟩ => ⟨S4096x64x64, .f32⟩
  | .hbm, ⟨18, _⟩ => ⟨S4096x64x64, .f32⟩
  | .hbm, ⟨19, _⟩ => ⟨S4096x64x64, .f32⟩
  | .hbm, ⟨20, _⟩ => ⟨S_, .f32⟩
  | .hbm, ⟨21, _⟩ => ⟨S4096x64, .f32⟩
  | .hbm, ⟨22, _⟩ => ⟨S4096x64x1, .f32⟩
  | .hbm, ⟨23, _⟩ => ⟨S4096x64x64, .f32⟩
  | .hbm, ⟨24, _⟩ => ⟨S4096x64x64, .f32⟩
  | .hbm, ⟨25, _⟩ => ⟨S4096x64x128, .f32⟩
  | .hbm, ⟨26, _⟩ => ⟨S4096x8192, .f32⟩
  | .hbm, ⟨27, _⟩ => ⟨S8192x128, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | .hbm, ⟨32, _⟩ => ⟨S_, .f32⟩
  | .hbm, ⟨33, _⟩ => ⟨S4096x128, .f32⟩
  | .hbm, ⟨34, _⟩ => ⟨S4096x128, .f32⟩
  | .hbm, ⟨35, _⟩ => ⟨S128x8192, .f32⟩
  | .hbm, ⟨36, _⟩ => ⟨S4096x8192, .f32⟩
  | .hbm, ⟨37, _⟩ => ⟨S1x8192, .f32⟩
  | .hbm, ⟨38, _⟩ => ⟨S4096x8192, .f32⟩
  | .hbm, ⟨39, _⟩ => ⟨S4096x8192, .f32⟩
  | .hbm, ⟨40, _⟩ => ⟨S4096x64x128, .f32⟩
  | .hbm, ⟨41, _⟩ => ⟨S4096x64x128, .f32⟩
  | .hbm, ⟨42, _⟩ => ⟨S4096x64x128, .f32⟩
  | .hbm, ⟨43, _⟩ => ⟨S_, .f32⟩
  | .hbm, ⟨44, _⟩ => ⟨S4096x64, .f32⟩
  | .hbm, ⟨45, _⟩ => ⟨S4096x64x1, .f32⟩
  | .hbm, ⟨46, _⟩ => ⟨S_, .f32⟩
  | .hbm, ⟨47, _⟩ => ⟨S4096x64x1, .f32⟩
  | .hbm, ⟨48, _⟩ => ⟨S4096x64x1, .f32⟩
  | .hbm, ⟨49, _⟩ => ⟨S4096x64x128, .f32⟩
  | .hbm, ⟨50, _⟩ => ⟨S4096x64x128, .f32⟩
  | .hbm, ⟨51, _⟩ => ⟨S4096x64x128, .f32⟩
  | .hbm, ⟨52, _⟩ => ⟨S_, .f32⟩
  | .hbm, ⟨53, _⟩ => ⟨S4096x64, .f32⟩
  | .hbm, ⟨54, _⟩ => ⟨S4096x64x1, .f32⟩
  | .hbm, ⟨55, _⟩ => ⟨S_, .f32⟩
  | .hbm, ⟨56, _⟩ => ⟨S4096x64x1, .f32⟩
  | .hbm, ⟨57, _⟩ => ⟨S4096x64x1, .f32⟩
  | .hbm, ⟨58, _⟩ => ⟨S4096x64x128, .f32⟩
  | .hbm, ⟨59, _⟩ => ⟨S4096x64x128, .f32⟩
  | .hbm, ⟨60, _⟩ => ⟨S_, .f32⟩
  | .hbm, ⟨61, _⟩ => ⟨S4096x64x1, .f32⟩
  | .hbm, ⟨62, _⟩ => ⟨S4096x64x1, .f32⟩
  | .hbm, ⟨63, _⟩ => ⟨S4096x64x1, .f32⟩
  | .hbm, ⟨64, _⟩ => ⟨S4096x64x128, .f32⟩
  | .hbm, ⟨65, _⟩ => ⟨S4096x64x128, .f32⟩
  | .hbm, ⟨66, _⟩ => ⟨S1x1x128, .f32⟩
  | .hbm, ⟨67, _⟩ => ⟨S4096x64x128, .f32⟩
  | .hbm, ⟨68, _⟩ => ⟨S4096x64x128, .f32⟩
  | .hbm, ⟨69, _⟩ => ⟨S1x1x128, .f32⟩
  | .hbm, ⟨70, _⟩ => ⟨S4096x64x128, .f32⟩
  | .hbm, ⟨71, _⟩ => ⟨S4096x64x128, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  bcast_S_S4096x64x64 : S_.BroadcastsInDim S4096x64x64 (![] : Fin 0 → Fin S4096x64x64.rank)
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x128_S4096x8192 : S4096x64x128.ShapeCasts S4096x8192
  transposes_S128x8192_S8192x128_1_0 : S128x8192.Transposes [1, 0] S8192x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S8192x128_S128x8192_1_0 : S8192x128.Transposes [1, 0] S128x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S4096x64x128 : S4096x8192.ShapeCasts S4096x64x128
  reducesTo_S4096x64x128_S4096x64_d2 : S4096x64x128.ReducesTo [2] S4096x64
  bcast_S_S4096x64x1 : S_.BroadcastsInDim S4096x64x1 (![] : Fin 0 → Fin S4096x64x1.rank)
  bcast_S4096x64x1_S4096x64x128_0_1_2 : S4096x64x1.BroadcastsInDim S4096x64x128 (![0, 1, 2] : Fin 3 → Fin S4096x64x128.rank)
  bcast_S128_S1x1x128_2 : S128.BroadcastsInDim S1x1x128 (![2] : Fin 1 → Fin S1x1x128.rank)
  bcast_S1x1x128_S4096x64x128_0_1_2 : S1x1x128.BroadcastsInDim S4096x64x128 (![0, 1, 2] : Fin 3 → Fin S4096x64x128.rank)
  dot_S4096x64x128_S4096x64x128_S4096x64x64_2_2_1_1_0_0_wf : DotDims.WF S4096x64x128 S4096x64x128 S4096x64x64 [2] [2] [1] [1] [0] [0]
  dot_S4096x64x64_S4096x64x128_S4096x64x128_2_1_1_2_0_0_wf : DotDims.WF S4096x64x64 S4096x64x128 S4096x64x128 [2] [1] [1] [2] [0] [0]
  dot_S4096x8192_S8192x128_S4096x128_1_0_0_1_n_n_wf : DotDims.WF S4096x8192 S8192x128 S4096x128 [1] [0] [0] [1] [] []
  dot_S4096x128_S128x8192_S4096x8192_1_0_0_1_n_n_wf : DotDims.WF S4096x128 S128x8192 S4096x8192 [1] [0] [0] [1] [] []

variable [Facts₀]

def dot_S4096x64x128_S4096x64x128_S4096x64x64_2_2_1_1_0_0 : DotDims S4096x64x128 S4096x64x128 S4096x64x64 where
  lhsContracting := [2]
  rhsContracting := [2]
  lhsNonContracting := [1]
  rhsNonContracting := [1]
  lhsBatch := [0]
  rhsBatch := [0]
  wf := dot_S4096x64x128_S4096x64x128_S4096x64x64_2_2_1_1_0_0_wf
def dot_S4096x64x64_S4096x64x128_S4096x64x128_2_1_1_2_0_0 : DotDims S4096x64x64 S4096x64x128 S4096x64x128 where
  lhsContracting := [2]
  rhsContracting := [1]
  lhsNonContracting := [1]
  rhsNonContracting := [2]
  lhsBatch := [0]
  rhsBatch := [0]
  wf := dot_S4096x64x64_S4096x64x128_S4096x64x128_2_1_1_2_0_0_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf

class Facts : Prop extends Facts₀ where

variable [Facts]
-- ==== Proof.Spec.lean ====
/-
  The mathematics both programs compute, one batch row at a time.

  A batch row is 64 tokens of 128 features.  Every token attends to every token of its own row
  (scores are the scaled inner products, the weights their softmax taken with the row maximum
  subtracted), the whole row, flattened to 8192 numbers, goes through a two-layer perceptron with a
  rectifier in the middle, and the sum of the attention output, the perceptron's output (read back as
  64 × 128) and the row itself is normalised over the feature axis to mean zero and variance one, then
  scaled and shifted feature by feature.  Nothing in it couples two batch rows, which is why a program
  that works on blocks of 64 rows and one that works on all 4096 at once compute the same array.

  Float literals stay as the extended real their word encodes; no law used anywhere evaluates one.
-/
import Idealize.ShloMosaic.PureOps.Ideal
import Idealize.ShloMosaic.Lib.ValueIdx

noncomputable section

open scoped BigOperators

namespace Cert.Spec

open Idealize.ShloMosaic Idealize.ShloMosaic.ValueIdx

/-- One batch row: 64 tokens of 128 features. -/
abbrev Row := Fin 64 → Fin 128 → EReal

/-- The attention scale, the single-precision word nearest to 128^(-1/2). -/
abbrev cScale : EReal := Ideal.ofBits .f32 0x3DB504F3#32
/-- Minus infinity, the neutral element the row maximum starts from. -/
abbrev cNegInf : EReal := Ideal.ofBits .f32 0xFF800000#32
/-- Zero, as the word both programs write for the rectifier's floor. -/
abbrev cZero : EReal := Ideal.ofBits .f32 0x00000000#32
/-- The feature count 128 the two means divide by. -/
abbrev c128 : EReal := Ideal.ofBits .f32 0x43000000#32
/-- The variance offset, the single-precision word nearest to 1e-5. -/
abbrev cEps : EReal := Ideal.ofBits .f32 0x3727C5AC#32

/-- Batch row `b` of a rank-3 array. -/
def rowOf {B : Nat} (X : (⟨3, ![B, 64, 128]⟩ : Shape).Idx → EReal) (b : Fin B) : Row := fun t d => X (ix3 b t d)
/-- A rank-2 array as a function of its two coordinates. -/
def mat {A B : Nat} (W : (⟨2, ![A, B]⟩ : Shape).Idx → EReal) : Fin A → Fin B → EReal := fun a b => W (ix2 a b)
/-- The same array read with its coordinates exchanged. -/
def matT {A B : Nat} (W : (⟨2, ![A, B]⟩ : Shape).Idx → EReal) : Fin B → Fin A → EReal := fun b a => W (ix2 a b)
/-- A rank-1 array as a function of its coordinate. -/
def vec {A : Nat} (v : (⟨1, ![A]⟩ : Shape).Idx → EReal) : Fin A → EReal := fun a => v (ix1 a)

/-- Scaled inner product of tokens `t` and `s`. -/
def score (x : Row) (t s : Fin 64) : EReal := (∑ d : Fin 128, x t d * x s d) * cScale
/-- The largest score of token `t` (taken from minus infinity, and once more against minus infinity). -/
def rowMax (x : Row) (t : Fin 64) : EReal :=
  max cNegInf ((Finset.univ : Finset (Fin 64)).fold max cNegInf (fun s => score x t s))
/-- Exponential of a score with the row maximum subtracted. -/
def expo (x : Row) (t s : Fin 64) : EReal := Ideal.exp (score x t s - rowMax x t)
/-- The softmax denominator of token `t`. -/
def denom (x : Row) (t : Fin 64) : EReal := ∑ s : Fin 64, expo x t s
/-- The attention weight token `t` gives token `s`. -/
def attn (x : Row) (t s : Fin 64) : EReal := Ideal.div (expo x t s) (denom x t)
/-- The attention output: the weighted sum of the row's tokens. -/
def mix (x : Row) (t : Fin 64) (d : Fin 128) : EReal := ∑ s : Fin 64, attn x t s * x s d

/-- The row flattened token-major to 8192 numbers. -/
def flat (x : Row) (k : Fin 8192) : EReal :=
  x ⟨k.val / 128, by have := k.isLt; omega⟩ ⟨k.val % 128, Nat.mod_lt _ (by decide)⟩
/-- Position of feature `d` of token `t` in the flattened row. -/
def flatIx (t : Fin 64) (d : Fin 128) : Fin 8192 := ⟨t.val * 128 + d.val, by have := t.isLt; have := d.isLt; omega⟩
/-- The hidden layer: the flattened row against the first weight matrix, plus bias, rectified. -/
def hidden (x : Row) (W1 : Fin 128 → Fin 8192 → EReal) (b1 : Fin 128 → EReal) (j : Fin 128) : EReal :=
  max ((∑ k : Fin 8192, flat x k * W1 j k) + b1 j) cZero
/-- The perceptron's output, one number per flattened position. -/
def deep (x : Row) (W1 : Fin 128 → Fin 8192 → EReal) (b1 : Fin 128 → EReal) (W2 : Fin 8192 → Fin 128 → EReal)
    (b2 : Fin 8192 → EReal) (k : Fin 8192) : EReal :=
  (∑ j : Fin 128, hidden x W1 b1 j * W2 k j) + b2 k

/-- Attention output plus perceptron output plus the row itself. -/
def resid (x : Row) (W1 : Fin 128 → Fin 8192 → EReal) (b1 : Fin 128 → EReal) (W2 : Fin 8192 → Fin 128 → EReal)
    (b2 : Fin 8192 → EReal) (t : Fin 64) (d : Fin 128) : EReal :=
  mix x t d + deep x W1 b1 W2 b2 (flatIx t d) + x t d
/-- Mean over the features of token `t`. -/
def mean (x : Row) (W1 : Fin 128 → Fin 8192 → EReal) (b1 : Fin 128 → EReal) (W2 : Fin 8192 → Fin 128 → EReal)
    (b2 : Fin 8192 → EReal) (t : Fin 64) : EReal :=
  Ideal.div (∑ d : Fin 128, resid x W1 b1 W2 b2 t d) c128
/-- Variance over the features of token `t`. -/
def var (x : Row) (W1 : Fin 128 → Fin 8192 → EReal) (b1 : Fin 128 → EReal) (W2 : Fin 8192 → Fin 128 → EReal)
    (b2 : Fin 8192 → EReal) (t : Fin 64) : EReal :=
  Ideal.div (∑ d : Fin 128, (resid x W1 b1 W2 b2 t d - mean x W1 b1 W2 b2 t) * (resid x W1 b1 W2 b2 t d - mean x W1 b1 W2 b2 t)) c128
/-- The normalised, scaled and shifted result. -/
def out (x : Row) (W1 : Fin 128 → Fin 8192 → EReal) (b1 : Fin 128 → EReal) (W2 : Fin 8192 → Fin 128 → EReal)
    (b2 : Fin 8192 → EReal) (g be : Fin 128 → EReal) (t : Fin 64) (d : Fin 128) : EReal :=
  (resid x W1 b1 W2 b2 t d - mean x W1 b1 W2 b2 t) * Ideal.rsqrt (var x W1 b1 W2 b2 t + cEps) * g d + be d

/-- The whole result array as one function of the seven argument arrays: entry (b, t, d) is `out` of batch row `b`. -/
def G (X : (⟨3, ![4096, 64, 128]⟩ : Shape).Idx → EReal) (W1 : (⟨2, ![128, 8192]⟩ : Shape).Idx → EReal)
    (b1 : (⟨1, ![128]⟩ : Shape).Idx → EReal) (W2 : (⟨2, ![8192, 128]⟩ : Shape).Idx → EReal)
    (b2 : (⟨1, ![8192]⟩ : Shape).Idx → EReal) (g be : (⟨1, ![128]⟩ : Shape).Idx → EReal) :
    (⟨3, ![4096, 64, 128]⟩ : Shape).Idx → EReal :=
  fun i => out (rowOf X (i 0)) (mat W1) (vec b1) (mat W2) (vec b2) (vec g) (vec be) (i 1) (i 2)

end Cert.Spec

end
-- ==== Proof.RefAttn.lean ====
import proofs.«173511_j24764781429079_1_alg».proof.Proof.Gen.ReferenceIdeal.Read
import proofs.«173511_j24764781429079_1_alg».proof.Proof.Spec

noncomputable section

open scoped BigOperators

namespace Cert.RefBridge

open Cert.ReferenceIdeal Cert.ReferenceIdeal.Gen Cert.ReferenceIdeal.Read Idealize.ShloMosaic Idealize.ShloMosaic.ValueIdx

/-- The scaled inner product of tokens t and s of batch row b. -/
theorem ref_score (X : (⟨S4096x64x128, .f32⟩ : BufTy).Contents (Elt Ideal)) (b : Fin 4096) (t s : Fin 64) :
    val_main_v2 (F := Ideal) X (ix3 b t s) = Spec.score (Spec.rowOf (B := 4096) X b) t s := by
  rw [val_main_v2_apply, val_main_v0_apply, val_main_v1_apply, val_main_cst_apply]
  unfold Spec.score Spec.rowOf
  refine congrArg (· * _) (Finset.sum_congr rfl fun k _ => ?_)
  have el : lidx_main_v0 (ix3 b t s) k = ix3 b t k := by
    funext a; match a with | ⟨0, _⟩ => rfl | ⟨1, _⟩ => rfl | ⟨2, _⟩ => rfl
  have er : ridx_main_v0 (ix3 b t s) k = ix3 b s k := by
    funext a; match a with | ⟨0, _⟩ => rfl | ⟨1, _⟩ => rfl | ⟨2, _⟩ => rfl
  rw [el, er]

/-- Inserting the coordinate k on the last axis of (b, t) gives (b, t, k). -/
private theorem lift_scoreAxis (b : Fin 4096) (t k : Fin 64) :
    Shape.Reduces.lift (s := S4096x64x64) (a := 2) (t := S4096x64) (by decide) (ix2 b t) k = ix3 b t k := by
  funext a; match a with
    | ⟨0, _⟩ => exact Fin.ext rfl
    | ⟨1, _⟩ => exact Fin.ext rfl
    | ⟨2, _⟩ => exact Fin.ext rfl

/-- The largest score of token t of batch row b. -/
theorem ref_rowMax (X : (⟨S4096x64x128, .f32⟩ : BufTy).Contents (Elt Ideal)) (b : Fin 4096) (t : Fin 64) :
    val_main_v5 (F := Ideal) X (ix2 b t) = Spec.rowMax (Spec.rowOf (B := 4096) X b) t := by
  rw [val_main_v5_apply, val_main_v4_apply, val_main_cst_1_apply]
  unfold val_main_v3
  rw [Host.reduce_eq_fold_single FloatOps.maximumf _ _ reducesTo_S4096x64x64_S4096x64_d2 (by decide) h_S_ (ix2 b t)]
  unfold Spec.rowMax
  refine congrArg (max Spec.cNegInf) (Finset.fold_congr fun k _ => ?_)
  exact (congrArg (val_main_v2 X) (lift_scoreAxis b t k)).trans (ref_score X b t k)

/-- The exponential of a score of batch row b with its row maximum subtracted. -/
theorem ref_expo (X : (⟨S4096x64x128, .f32⟩ : BufTy).Contents (Elt Ideal)) (b : Fin 4096) (t s : Fin 64) :
    val_main_v9 (F := Ideal) X (ix3 b t s) = Spec.expo (Spec.rowOf (B := 4096) X b) t s := by
  rw [val_main_v9_apply, val_main_v8_apply, val_main_v7_apply, val_main_v6_apply]
  have ei : idx_main_v6 (idx_main_v7 (ix3 b t s)) = ix2 b t := by
    funext a; match a with | ⟨0, _⟩ => rfl | ⟨1, _⟩ => rfl
  rw [ei, ref_rowMax, ref_score]
  rfl

/-- The softmax denominator of token t of batch row b. -/
theorem ref_denom (X : (⟨S4096x64x128, .f32⟩ : BufTy).Contents (Elt Ideal)) (b : Fin 4096) (t : Fin 64) :
    val_main_v10 (F := Ideal) X (ix2 b t) = Spec.denom (Spec.rowOf (B := 4096) X b) t := by
  rw [val_main_v10_apply, val_main_cst_2_apply]
  show Ideal.ofBits .f32 0x00000000#32 + _ = _
  rw [Ideal.ofBits_zero_f32, zero_add]
  unfold Spec.denom
  refine Finset.sum_congr rfl fun k _ => ?_
  have ei : idx_main_v10 (ix2 b t) k = ix3 b t k := by
    funext a; match a with | ⟨0, _⟩ => rfl | ⟨1, _⟩ => rfl | ⟨2, _⟩ => rfl
  rw [ei, ref_expo]

/-- The attention weight token t of batch row b gives token s. -/
theorem ref_attn (X : (⟨S4096x64x128, .f32⟩ : BufTy).Contents (Elt Ideal)) (b : Fin 4096) (t s : Fin 64) :
    val_main_v13 (F := Ideal) X (ix3 b t s) = Spec.attn (Spec.rowOf (B := 4096) X b) t s := by
  rw [val_main_v13_apply, val_main_v12_apply, val_main_v11_apply]
  have ei : idx_main_v11 (idx_main_v12 (ix3 b t s)) = ix2 b t := by
    funext a; match a with | ⟨0, _⟩ => rfl | ⟨1, _⟩ => rfl
  rw [ei, ref_denom, ref_expo]
  rfl

/-- The reference's attention output at (b, t, d) is the attention output of batch row b. -/
theorem ref_mix (X : (⟨S4096x64x128, .f32⟩ : BufTy).Contents (Elt Ideal)) (b : Fin 4096) (t : Fin 64) (d : Fin 128) :
    val_main_v14 (F := Ideal) X (ix3 b t d) = Spec.mix (Spec.rowOf (B := 4096) X b) t d := by
  rw [val_main_v14_apply]
  unfold Spec.mix
  refine Finset.sum_congr rfl fun k _ => ?_
  have el : lidx_main_v14 (ix3 b t d) k = ix3 b t k := by
    funext a; match a with | ⟨0, _⟩ => rfl | ⟨1, _⟩ => rfl | ⟨2, _⟩ => rfl
  have er : ridx_main_v14 (ix3 b t d) k = ix3 b k d := by
    funext a; match a with | ⟨0, _⟩ => rfl | ⟨1, _⟩ => rfl | ⟨2, _⟩ => rfl
  rw [el, er, ref_attn]
  rfl

end Cert.RefBridge

end
-- ==== Proof.RefMlp.lean ====
import proofs.«173511_j24764781429079_1_alg».proof.Proof.Gen.ReferenceIdeal.Read
import proofs.«173511_j24764781429079_1_alg».proof.Proof.Spec

noncomputable section

open scoped BigOperators

namespace Cert.RefBridge

open Cert.ReferenceIdeal Cert.ReferenceIdeal.Read Idealize.ShloMosaic Idealize.ShloMosaic.ValueIdx

/-- Flattening: position k of batch row b in the 4096 × 8192 view is token k / 128, feature k % 128 of that row. -/
theorem idx_flat (b : Fin 4096) (k : Fin 8192) :
    idx_main_v15 (ix2 b k)
      = ix3 b (⟨k.val / 128, by have := k.isLt; omega⟩ : Fin 64) (⟨k.val % 128, Nat.mod_lt _ (by decide)⟩ : Fin 128) := by
  funext a
  match a with
  | ⟨0, _⟩ => exact Fin.ext (by show (b.val * 8192 + k.val) / 8192 = b.val; have := k.isLt; omega)
  | ⟨1, _⟩ => exact Fin.ext (by show (b.val * 8192 + k.val) / 128 % 64 = k.val / 128; have := k.isLt; omega)
  | ⟨2, _⟩ => exact Fin.ext (by show (b.val * 8192 + k.val) % 128 = k.val % 128; omega)

/-- The flattened array at (b, k) is the flattened batch row b at k. -/
theorem ref_flat (X : (⟨S4096x64x128, .f32⟩ : BufTy).Contents (Elt Ideal)) (b : Fin 4096) (k : Fin 8192) :
    val_main_v15 (F := Ideal) X (ix2 b k) = Spec.flat (Spec.rowOf (B := 4096) X b) k := by
  refine (val_main_v15_apply X (ix2 b k)).trans ?_
  rw [idx_flat]
  rfl

/-- Reading the token-by-feature view at (b, t, d) is reading the flat view at (b, t * 128 + d). -/
theorem idx_unflat (b : Fin 4096) (t : Fin 64) (d : Fin 128) :
    idx_main_v27 (ix3 b t d) = ix2 b (Spec.flatIx t d) := by
  funext a
  match a with
  | ⟨0, _⟩ => exact Fin.ext (by show ((b.val * 64 + t.val) * 128 + d.val) / 8192 = b.val; have := t.isLt; have := d.isLt; omega)
  | ⟨1, _⟩ => exact Fin.ext (by show ((b.val * 64 + t.val) * 128 + d.val) % 8192 = t.val * 128 + d.val; have := t.isLt; have := d.isLt; omega)

/-- The transposed first weight matrix at (k, j) is the matrix itself at (j, k). -/
theorem ref_w1 (W1 : (⟨S128x8192, .f32⟩ : BufTy).Contents (Elt Ideal)) (b : Fin 4096) (j : Fin 128) (k : Fin 8192) :
    val_main_v16 (F := Ideal) W1 (ridx_main_v17 (ix2 b j) k) = Spec.mat W1 j k := by
  refine (val_main_v16_apply W1 _).trans ?_
  show W1 _ = W1 (ix2 j k)
  congr 1
  funext a
  match a with
  | ⟨0, _⟩ => rfl
  | ⟨1, _⟩ => rfl

/-- The left index of the first product at (b, j), summand k, is (b, k). -/
theorem lidx17 (b : Fin 4096) (j : Fin 128) (k : Fin 8192) : lidx_main_v17 (ix2 b j) k = ix2 b k := by
  funext a
  match a with
  | ⟨0, _⟩ => rfl
  | ⟨1, _⟩ => rfl

/-- The first bias, broadcast over the batch, at (b, j) is its j-th entry. -/
theorem ref_b1 (b1 : (⟨S128, .f32⟩ : BufTy).Contents (Elt Ideal)) (b : Fin 4096) (j : Fin 128) :
    val_main_v19 (F := Ideal) b1 (ix2 b j) = Spec.vec b1 j := by
  refine (val_main_v19_apply b1 _).trans ?_
  refine (val_main_v18_apply b1 _).trans ?_
  show b1 _ = b1 (ix1 j)
  congr 1
  funext a
  match a with
  | ⟨0, _⟩ => rfl

/-- The rectifier's floor, broadcast, is the zero word everywhere. -/
theorem ref_zero (i : S4096x128.Idx) : val_main_call0_v0 (F := Ideal) i = Spec.cZero := by
  refine (val_main_call0_v0_apply i).trans ?_
  rfl

/-- The hidden layer of the reference at (b, j) is the hidden layer of batch row b at j. -/
theorem ref_hidden (X : (⟨S4096x64x128, .f32⟩ : BufTy).Contents (Elt Ideal)) (W1 : (⟨S128x8192, .f32⟩ : BufTy).Contents (Elt Ideal))
    (b1 : (⟨S128, .f32⟩ : BufTy).Contents (Elt Ideal)) (b : Fin 4096) (j : Fin 128) :
    val_main_v21 (F := Ideal) X W1 b1 (ix2 b j)
      = Spec.hidden (Spec.rowOf (B := 4096) X b) (Spec.mat W1) (Spec.vec b1) j := by
  refine (val_main_v21_apply X W1 b1 _).trans ?_
  rw [ref_zero, val_main_v20_apply, ref_b1, val_main_v17_apply]
  show max ((∑ k : Fin 8192, _) + _) _ = _
  unfold Spec.hidden
  congr 2
  refine Finset.sum_congr rfl fun k _ => ?_
  rw [lidx17, ref_flat, ref_w1]

/-- The transposed second weight matrix at (j, k) is the matrix itself at (k, j). -/
theorem ref_w2 (W2 : (⟨S8192x128, .f32⟩ : BufTy).Contents (Elt Ideal)) (b : Fin 4096) (k : Fin 8192) (j : Fin 128) :
    val_main_v22 (F := Ideal) W2 (ridx_main_v23 (ix2 b k) j) = Spec.mat W2 k j := by
  refine (val_main_v22_apply W2 _).trans ?_
  show W2 _ = W2 (ix2 k j)
  congr 1
  funext a
  match a with
  | ⟨0, _⟩ => rfl
  | ⟨1, _⟩ => rfl

/-- The left index of the second product at (b, k), summand j, is (b, j). -/
theorem lidx23 (b : Fin 4096) (k : Fin 8192) (j : Fin 128) : lidx_main_v23 (ix2 b k) j = ix2 b j := by
  funext a
  match a with
  | ⟨0, _⟩ => rfl
  | ⟨1, _⟩ => rfl

/-- The second bias, broadcast over the batch, at (b, k) is its k-th entry. -/
theorem ref_b2 (b2 : (⟨S8192, .f32⟩ : BufTy).Contents (Elt Ideal)) (b : Fin 4096) (k : Fin 8192) :
    val_main_v25 (F := Ideal) b2 (ix2 b k) = Spec.vec b2 k := by
  refine (val_main_v25_apply b2 _).trans ?_
  refine (val_main_v24_apply b2 _).trans ?_
  show b2 _ = b2 (ix1 k)
  congr 1
  funext a
  match a with
  | ⟨0, _⟩ => rfl

/-- The perceptron's output in the flat view at (b, k) is the perceptron's output of batch row b at k. -/
theorem ref_pre (X : (⟨S4096x64x128, .f32⟩ : BufTy).Contents (Elt Ideal)) (W1 : (⟨S128x8192, .f32⟩ : BufTy).Contents (Elt Ideal))
    (b1 : (⟨S128, .f32⟩ : BufTy).Contents (Elt Ideal)) (W2 : (⟨S8192x128, .f32⟩ : BufTy).Contents (Elt Ideal))
    (b2 : (⟨S8192, .f32⟩ : BufTy).Contents (Elt Ideal)) (b : Fin 4096) (k : Fin 8192) :
    val_main_v26 (F := Ideal) X W1 b1 W2 b2 (ix2 b k)
      = Spec.deep (Spec.rowOf (B := 4096) X b) (Spec.mat W1) (Spec.vec b1) (Spec.mat W2) (Spec.vec b2) k := by
  refine (val_main_v26_apply X W1 b1 W2 b2 _).trans ?_
  rw [ref_b2, val_main_v23_apply]
  show (∑ j : Fin 128, _) + _ = _
  unfold Spec.deep
  congr 1
  refine Finset.sum_congr rfl fun j _ => ?_
  rw [lidx23, ref_hidden, ref_w2]

/-- The reference's perceptron output, read back as tokens by features, at (b, t, d) is the perceptron's output of
    batch row b at the flattened position of (t, d). -/
theorem ref_deep (X : (⟨S4096x64x128, .f32⟩ : BufTy).Contents (Elt Ideal)) (W1 : (⟨S128x8192, .f32⟩ : BufTy).Contents (Elt Ideal))
    (b1 : (⟨S128, .f32⟩ : BufTy).Contents (Elt Ideal)) (W2 : (⟨S8192x128, .f32⟩ : BufTy).Contents (Elt Ideal))
    (b2 : (⟨S8192, .f32⟩ : BufTy).Contents (Elt Ideal)) (b : Fin 4096) (t : Fin 64) (d : Fin 128) :
    val_main_v27 (F := Ideal) X W1 b1 W2 b2 (ix3 b t d)
      = Spec.deep (Spec.rowOf (B := 4096) X b) (Spec.mat W1) (Spec.vec b1) (Spec.mat W2) (Spec.vec b2) (Spec.flatIx t d) := by
  refine (val_main_v27_apply X W1 b1 W2 b2 _).trans ?_
  rw [idx_unflat]
  exact ref_pre X W1 b1 W2 b2 b (Spec.flatIx t d)

end Cert.RefBridge

end
-- ==== Proof.RefOut.lean ====
import proofs.«173511_j24764781429079_1_alg».proof.Proof.RefAttn
import proofs.«173511_j24764781429079_1_alg».proof.Proof.RefMlp
import Idealize.ShloMosaic.PureOps.Ideal.Laws

noncomputable section

open scoped BigOperators

/-
  The reference after its attention and perceptron stages: the residual sum, the two means over the feature
  axis (each a host sum from zero, divided by the feature count), the reciprocal square root and the
  feature-wise scale and shift.  Every stage is read at one index of batch row b and found to be the
  specification's quantity for that row.
-/
namespace Cert.RefBridge

open Cert.ReferenceIdeal Cert.ReferenceIdeal.Read Idealize.ShloMosaic Idealize.ShloMosaic.ValueIdx

variable (X : (⟨S4096x64x128, .f32⟩ : BufTy).Contents (Elt Ideal)) (W1 : (⟨S128x8192, .f32⟩ : BufTy).Contents (Elt Ideal))
  (b1 : (⟨S128, .f32⟩ : BufTy).Contents (Elt Ideal)) (W2 : (⟨S8192x128, .f32⟩ : BufTy).Contents (Elt Ideal))
  (b2 : (⟨S8192, .f32⟩ : BufTy).Contents (Elt Ideal)) (g be : (⟨S128, .f32⟩ : BufTy).Contents (Elt Ideal))

/-- The one coordinate of a unit axis. -/
abbrev z1 : Fin 1 := ⟨0, Nat.one_pos⟩

/-- Attention output plus perceptron output plus the input, at (b, t, d). -/
theorem ref_resid (b : Fin 4096) (t : Fin 64) (d : Fin 128) :
    val_main_v29 (F := Ideal) X W1 b1 W2 b2 (ix3 b t d)
      = Spec.resid (Spec.rowOf (B := 4096) X b) (Spec.mat W1) (Spec.vec b1) (Spec.mat W2) (Spec.vec b2) t d := by
  rw [val_main_v29_apply, val_main_v28_apply, ref_mix, ref_deep]
  rfl

/-- The feature sum of the residual at (b, t): the host's sum starts from the zero word, which vanishes. -/
theorem ref_sum1 (b : Fin 4096) (t : Fin 64) :
    val_main_v30 (F := Ideal) X W1 b1 W2 b2 (ix2 b t)
      = ∑ d : Fin 128, Spec.resid (Spec.rowOf (B := 4096) X b) (Spec.mat W1) (Spec.vec b1) (Spec.mat W2) (Spec.vec b2) t d := by
  rw [val_main_v30_apply, val_main_cst_3_apply]
  show Ideal.ofBits .f32 0x00000000#32 + _ = _
  rw [Ideal.ofBits_zero_f32, zero_add]
  refine Finset.sum_congr rfl fun k _ => ?_
  have hi : idx_main_v30 (ix2 b t) k = ix3 b t k := by
    funext a; match a with | ⟨0, _⟩ => rfl | ⟨1, _⟩ => rfl | ⟨2, _⟩ => rfl
  rw [hi, ref_resid]

/-- The mean over the features at (b, t), kept with a unit last axis. -/
theorem ref_mean (b : Fin 4096) (t : Fin 64) :
    val_main_v33 (F := Ideal) X W1 b1 W2 b2 (ix3 b t z1)
      = Spec.mean (Spec.rowOf (B := 4096) X b) (Spec.mat W1) (Spec.vec b1) (Spec.mat W2) (Spec.vec b2) t := by
  have hi : idx_main_v31 (ix3 b t z1) = ix2 b t := by
    funext a; match a with | ⟨0, _⟩ => rfl | ⟨1, _⟩ => rfl
  rw [val_main_v33_apply, val_main_v31_apply, val_main_v32_apply, val_main_cst_4_apply, hi, ref_sum1]
  rfl

/-- The centred residual at (b, t, d). -/
theorem ref_centred (b : Fin 4096) (t : Fin 64) (d : Fin 128) :
    val_main_v35 (F := Ideal) X W1 b1 W2 b2 (ix3 b t d)
      = Spec.resid (Spec.rowOf (B := 4096) X b) (Spec.mat W1) (Spec.vec b1) (Spec.mat W2) (Spec.vec b2) t d
        - Spec.mean (Spec.rowOf (B := 4096) X b) (Spec.mat W1) (Spec.vec b1) (Spec.mat W2) (Spec.vec b2) t := by
  have hi : idx_main_v34 (ix3 b t d) = ix3 b t z1 := by
    funext a; match a with | ⟨0, _⟩ => rfl | ⟨1, _⟩ => rfl | ⟨2, _⟩ => rfl
  rw [val_main_v35_apply, val_main_v34_apply, hi, ref_mean, ref_resid]
  rfl

/-- The feature sum of the squared centred residual at (b, t). -/
theorem ref_sum2 (b : Fin 4096) (t : Fin 64) :
    val_main_v37 (F := Ideal) X W1 b1 W2 b2 (ix2 b t)
      = ∑ d : Fin 128,
          (Spec.resid (Spec.rowOf (B := 4096) X b) (Spec.mat W1) (Spec.vec b1) (Spec.mat W2) (Spec.vec b2) t d
            - Spec.mean (Spec.rowOf (B := 4096) X b) (Spec.mat W1) (Spec.vec b1) (Spec.mat W2) (Spec.vec b2) t)
          * (Spec.resid (Spec.rowOf (B := 4096) X b) (Spec.mat W1) (Spec.vec b1) (Spec.mat W2) (Spec.vec b2) t d
            - Spec.mean (Spec.rowOf (B := 4096) X b) (Spec.mat W1) (Spec.vec b1) (Spec.mat W2) (Spec.vec b2) t) := by
  rw [val_main_v37_apply, val_main_cst_5_apply]
  show Ideal.ofBits .f32 0x00000000#32 + _ = _
  rw [Ideal.ofBits_zero_f32, zero_add]
  refine Finset.sum_congr rfl fun k _ => ?_
  have hi : idx_main_v37 (ix2 b t) k = ix3 b t k := by
    funext a; match a with | ⟨0, _⟩ => rfl | ⟨1, _⟩ => rfl | ⟨2, _⟩ => rfl
  rw [hi, val_main_v36_apply, ref_centred]
  rfl

/-- The variance over the features at (b, t), kept with a unit last axis. -/
theorem ref_var (b : Fin 4096) (t : Fin 64) :
    val_main_v40 (F := Ideal) X W1 b1 W2 b2 (ix3 b t z1)
      = Spec.var (Spec.rowOf (B := 4096) X b) (Spec.mat W1) (Spec.vec b1) (Spec.mat W2) (Spec.vec b2) t := by
  have hi : idx_main_v38 (ix3 b t z1) = ix2 b t := by
    funext a; match a with | ⟨0, _⟩ => rfl | ⟨1, _⟩ => rfl
  rw [val_main_v40_apply, val_main_v38_apply, val_main_v39_apply, val_main_cst_6_apply, hi, ref_sum2]
  rfl

/-- The reference's result at (b, t, d) is the specification's result for batch row b. -/
theorem ref_out_apply (b : Fin 4096) (t : Fin 64) (d : Fin 128) :
    val_main_v53 (F := Ideal) X W1 b1 W2 b2 g be (ix3 b t d)
      = Spec.out (Spec.rowOf (B := 4096) X b) (Spec.mat W1) (Spec.vec b1) (Spec.mat W2) (Spec.vec b2) (Spec.vec g) (Spec.vec be) t d := by
  have h41 : idx_main_v41 (ix3 b t d) = ix3 b t z1 := by
    funext a; match a with | ⟨0, _⟩ => rfl | ⟨1, _⟩ => rfl | ⟨2, _⟩ => rfl
  have h46 : idx_main_v46 (ix3 b t d) = ix3 b t z1 := by
    funext a; match a with | ⟨0, _⟩ => rfl | ⟨1, _⟩ => rfl | ⟨2, _⟩ => rfl
  have h49 : idx_main_v48 (idx_main_v49 (ix3 b t d)) = ix1 d := by
    funext a; match a with | ⟨0, _⟩ => rfl
  have h52 : idx_main_v51 (idx_main_v52 (ix3 b t d)) = ix1 d := by
    funext a; match a with | ⟨0, _⟩ => rfl
  rw [val_main_v53_apply, val_main_v50_apply, val_main_v47_apply, val_main_v42_apply, val_main_v41_apply, h41, ref_mean,
    ref_resid, val_main_v46_apply, h46, val_main_v45_apply, val_main_v44_apply, ref_var, val_main_v43_apply,
    val_main_cst_7_apply, val_main_v49_apply, val_main_v48_apply, h49, val_main_v52_apply, val_main_v51_apply, h52]
  rfl

/-- The reference's result array is the specification's function of the seven arguments. -/
theorem ref_out :
    val_main_v53 (F := Ideal) X W1 b1 W2 b2 g be = Spec.G X W1 b1 W2 b2 g be := by
  funext i
  obtain ⟨b, t, d, rfl⟩ : ∃ (b : Fin 4096) (t : Fin 64) (d : Fin 128), i = ix3 b t d := ⟨i 0, i 1, i 2, eq_ix3 i⟩
  rw [ref_out_apply]
  rfl

end Cert.RefBridge

end
-- ==== Proof.KerStages.lean ====
/-
  The kernel body's arithmetic, cut at the places where the mathematics has a name: the scaled scores, the
  row maximum, the exponentials, the softmax denominator, the attention weights and the attention output on
  one side; the hidden layer and the perceptron's output on the other.  Each definition is the body's own
  term for that value, at any float instance, so the body's payload is their sum by unfolding alone.
-/
import proofs.«173511_j24764781429079_1_alg».proof.Proof.Gen.KernelIdeal.Skeleton

noncomputable section

namespace Cert.KerBridge

open Cert.KernelIdeal Cert.KernelIdeal.Gen Idealize.ShloMosaic

variable {F : FTy → Type} [FloatOps F]

/-- Scaled scores of a block of 64 batch rows: entry (b, t, s) pairs tokens t and s of row b. -/
def kScore (x : Vec F S64x64x128 .f32) : FVec F S64x64x64 .f32 :=
  mulf (matmul dot_S64x64x128_S64x64x128_S64x64x64_2_2_1_1_0_0 none (truncf .bf16 x bitsLt_bf16_f32) (truncf .bf16 x bitsLt_bf16_f32) (constant S64x64x64 .f32 0x00000000#32))
    (broadcast S64x64x64 (Scalar.ofBits .f32 0x3DB504F3#32))

/-- Row maxima of the scores. -/
def kMax (x : Vec F S64x64x128 .f32) : FVec F S64x64 .f32 :=
  maximumf (broadcast S64x64 (Scalar.ofBits .f32 0xFF800000#32))
    (multiReduction .maximumf [2] S64x64 (kScore x) 0xFF800000#32 reduces_S64x64x64_S64x64 (.inl rfl) rfl)

/-- Exponentials of the scores with the row maximum subtracted. -/
def kExp (x : Vec F S64x64x128 .f32) : FVec F S64x64x64 .f32 :=
  exp (subf (kScore x) (broadcastTo S64x64x64 (shapeCast S64x64x1 (kMax x) shapeCasts_S64x64_S64x64x1) broadcasts_S64x64x1_S64x64x64))

/-- Softmax denominators. -/
def kDen (x : Vec F S64x64x128 .f32) : FVec F S64x64 .f32 :=
  multiReduction .add [2] S64x64 (kExp x) 0x00000000#32 reduces_S64x64x64_S64x64 (.inl rfl) rfl

/-- Attention weights. -/
def kAttn (x : Vec F S64x64x128 .f32) : FVec F S64x64x64 .f32 :=
  divf (kExp x) (broadcastTo S64x64x64 (shapeCast S64x64x1 (kDen x) shapeCasts_S64x64_S64x64x1) broadcasts_S64x64x1_S64x64x64)

/-- Attention output. -/
def kMix (x : Vec F S64x64x128 .f32) : FVec F S64x64x128 .f32 :=
  matmul dot_S64x64x64_S64x64x128_S64x64x128_2_1_1_2_0_0 none (truncf .bf16 (kAttn x) bitsLt_bf16_f32) (truncf .bf16 x bitsLt_bf16_f32) (constant S64x64x128 .f32 0x00000000#32)

/-- Hidden layer of the perceptron, one row of 128 numbers per batch row. -/
def kHidden (x : Vec F S64x64x128 .f32) (w1t : Vec F S8192x128 .f32) (b1 : Vec F S128 .f32) : FVec F S64x128 .f32 :=
  maximumf
    (addf
      (matmul dot_S64x8192_S8192x128_S64x128_1_0_0_1_n_n none
        (truncf .bf16 (shapeCast S64x8192 x shapeCasts_S64x64x128_S64x8192) bitsLt_bf16_f32)
        (truncf .bf16 (shapeCast S8192x128 w1t shapeCasts_S8192x128_S8192x128) bitsLt_bf16_f32)
        (constant S64x128 .f32 0x00000000#32))
      (broadcastTo S64x128 (shapeCast S1x128 b1 shapeCasts_S128_S1x128) broadcasts_S1x128_S64x128))
    (broadcast S64x128 (Scalar.ofBits .f32 0x00000000#32))

/-- The perceptron's output, read back as 64 tokens of 128 features per batch row. -/
def kDeep (x : Vec F S64x64x128 .f32) (w1t : Vec F S8192x128 .f32) (b1 : Vec F S128 .f32) (w2t : Vec F S128x8192 .f32)
    (b2 : Vec F S8192 .f32) : FVec F S64x64x128 .f32 :=
  shapeCast S64x64x128
    (addf
      (matmul dot_S64x128_S128x8192_S64x8192_1_0_0_1_n_n none
        (truncf .bf16 (kHidden x w1t b1) bitsLt_bf16_f32)
        (truncf .bf16 (shapeCast S128x8192 w2t shapeCasts_S128x8192_S128x8192) bitsLt_bf16_f32)
        (constant S64x8192 .f32 0x00000000#32))
      (broadcastTo S64x8192 (shapeCast S1x8192 b2 shapeCasts_S8192_S1x8192) broadcasts_S1x8192_S64x8192))
    shapeCasts_S64x8192_S64x64x128

/-- The body's first payload is the attention output plus the perceptron's output. -/
theorem pay2_eq (x : Vec F S64x64x128 .f32) (w1t : Vec F S8192x128 .f32) (b1 : Vec F S128 .f32) (w2t : Vec F S128x8192 .f32)
    (b2 : Vec F S8192 .f32) : k0_pay2 x w1t b1 w2t b2 = addf (kMix x) (kDeep x w1t b1 w2t b2) := rfl

end Cert.KerBridge

end
-- ==== Proof.KerAttn.lean ====
import proofs.«173511_j24764781429079_1_alg».proof.Proof.KerStages
import proofs.«173511_j24764781429079_1_alg».proof.Proof.Spec
import Idealize.ShloMosaic.Lib.Pipeline.Value
import Idealize.ShloMosaic.PureOps.Ideal.Laws

noncomputable section

open scoped BigOperators

namespace Cert.KerBridge

open Cert.KernelIdeal Cert.KernelIdeal.Gen Idealize.ShloMosaic Idealize.ShloMosaic.ValueIdx

/-! ### The first product: which entries of the two operands a score pairs -/

/-- Left operand, batch axis: the output's batch coordinate. -/
theorem score_lhs_0 (i : S64x64x64.Idx) (q : dot_S64x64x128_S64x64x128_S64x64x64_2_2_1_1_0_0.contr.Idx) :
    (dot_S64x64x128_S64x64x128_S64x64x64_2_2_1_1_0_0.lhsIdx i q 0).val = (i 0).val := by
  unfold DotDims.lhsIdx
  rw [dif_pos (show (0 : Fin S64x64x128.rank) ∈ dot_S64x64x128_S64x64x128_S64x64x64_2_2_1_1_0_0.lhsBatch by decide)]
  rfl
/-- Left operand, token axis: the output's row coordinate. -/
theorem score_lhs_1 (i : S64x64x64.Idx) (q : dot_S64x64x128_S64x64x128_S64x64x64_2_2_1_1_0_0.contr.Idx) :
    (dot_S64x64x128_S64x64x128_S64x64x64_2_2_1_1_0_0.lhsIdx i q 1).val = (i 1).val := by
  unfold DotDims.lhsIdx
  rw [dif_neg (show ¬(1 : Fin S64x64x128.rank) ∈ dot_S64x64x128_S64x64x128_S64x64x64_2_2_1_1_0_0.lhsBatch by decide), dif_pos (show (1 : Fin S64x64x128.rank) ∈ dot_S64x64x128_S64x64x128_S64x64x64_2_2_1_1_0_0.lhsNonContracting by decide)]
  rfl
/-- Left operand, feature axis: the summation coordinate. -/
theorem score_lhs_2 (i : S64x64x64.Idx) (q : dot_S64x64x128_S64x64x128_S64x64x64_2_2_1_1_0_0.contr.Idx) :
    (dot_S64x64x128_S64x64x128_S64x64x64_2_2_1_1_0_0.lhsIdx i q 2).val = (q ⟨0, by decide⟩).val :=
  dot_S64x64x128_S64x64x128_S64x64x64_2_2_1_1_0_0.lhsIdx_val_of_single rfl i q
/-- Right operand, batch axis: the output's batch coordinate. -/
theorem score_rhs_0 (i : S64x64x64.Idx) (q : dot_S64x64x128_S64x64x128_S64x64x64_2_2_1_1_0_0.contr.Idx) :
    (dot_S64x64x128_S64x64x128_S64x64x64_2_2_1_1_0_0.rhsIdx i q 0).val = (i 0).val := by
  unfold DotDims.rhsIdx
  rw [dif_pos (show (0 : Fin S64x64x128.rank) ∈ dot_S64x64x128_S64x64x128_S64x64x64_2_2_1_1_0_0.rhsBatch by decide)]
  rfl
/-- Right operand, token axis: the output's column coordinate. -/
theorem score_rhs_1 (i : S64x64x64.Idx) (q : dot_S64x64x128_S64x64x128_S64x64x64_2_2_1_1_0_0.contr.Idx) :
    (dot_S64x64x128_S64x64x128_S64x64x64_2_2_1_1_0_0.rhsIdx i q 1).val = (i 2).val := by
  unfold DotDims.rhsIdx
  rw [dif_neg (show ¬(1 : Fin S64x64x128.rank) ∈ dot_S64x64x128_S64x64x128_S64x64x64_2_2_1_1_0_0.rhsBatch by decide), dif_pos (show (1 : Fin S64x64x128.rank) ∈ dot_S64x64x128_S64x64x128_S64x64x64_2_2_1_1_0_0.rhsNonContracting by decide)]
  rfl
/-- Right operand, feature axis: the summation coordinate. -/
theorem score_rhs_2 (i : S64x64x64.Idx) (q : dot_S64x64x128_S64x64x128_S64x64x64_2_2_1_1_0_0.contr.Idx) :
    (dot_S64x64x128_S64x64x128_S64x64x64_2_2_1_1_0_0.rhsIdx i q 2).val = (q ⟨0, by decide⟩).val :=
  dot_S64x64x128_S64x64x128_S64x64x64_2_2_1_1_0_0.rhsIdx_val_of_single rfl i q

/-- The block's score at (b, t, s) is the scaled inner product of tokens t and s of row b. -/
theorem ker_score (x : Vec Ideal S64x64x128 .f32) (bl t s : Fin 64) :
    kScore (F := Ideal) x (ix3 bl t s) = Spec.score (Spec.rowOf (B := 64) x bl) t s := by
  have h := Ideal.matmul_constant_zero_apply dot_S64x64x128_S64x64x128_S64x64x64_2_2_1_1_0_0 none
    (truncf .bf16 x bitsLt_bf16_f32) (truncf .bf16 x bitsLt_bf16_f32) (ix3 bl t s)
  show (FloatOps.matmul (F := Ideal) dot_S64x64x128_S64x64x128_S64x64x64_2_2_1_1_0_0 none (truncf .bf16 x bitsLt_bf16_f32) (truncf .bf16 x bitsLt_bf16_f32)
      (constant S64x64x64 .f32 0x00000000#32) (ix3 bl t s) : EReal) * Spec.cScale
    = (∑ d : Fin 128, x (ix3 bl t d) * x (ix3 bl s d)) * Spec.cScale
  refine congrArg (· * Spec.cScale) ?_
  refine h.trans ?_
  rw [← Equiv.sum_comp (contrEquiv1 dot_S64x64x128_S64x64x128_S64x64x64_2_2_1_1_0_0 128 rfl rfl).symm]
  refine Finset.sum_congr rfl fun k _ => ?_
  have hk := contrEquiv1_symm_val dot_S64x64x128_S64x64x128_S64x64x64_2_2_1_1_0_0 128 rfl rfl k
  have el : dot_S64x64x128_S64x64x128_S64x64x64_2_2_1_1_0_0.lhsIdx (ix3 bl t s) ((contrEquiv1 dot_S64x64x128_S64x64x128_S64x64x64_2_2_1_1_0_0 128 rfl rfl).symm k) = ix3 bl t k :=
    funext fun a => Fin.ext (by
      match a with
      | ⟨0, _⟩ => exact score_lhs_0 _ _
      | ⟨1, _⟩ => exact score_lhs_1 _ _
      | ⟨2, _⟩ => exact (score_lhs_2 _ _).trans hk)
  have er : dot_S64x64x128_S64x64x128_S64x64x64_2_2_1_1_0_0.rhsIdx (ix3 bl t s) ((contrEquiv1 dot_S64x64x128_S64x64x128_S64x64x64_2_2_1_1_0_0 128 rfl rfl).symm k) = ix3 bl s k :=
    funext fun a => Fin.ext (by
      match a with
      | ⟨0, _⟩ => exact score_rhs_0 _ _
      | ⟨1, _⟩ => exact score_rhs_1 _ _
      | ⟨2, _⟩ => exact (score_rhs_2 _ _).trans hk)
  show x (dot_S64x64x128_S64x64x128_S64x64x64_2_2_1_1_0_0.lhsIdx (ix3 bl t s) ((contrEquiv1 dot_S64x64x128_S64x64x128_S64x64x64_2_2_1_1_0_0 128 rfl rfl).symm k))
      * x (dot_S64x64x128_S64x64x128_S64x64x64_2_2_1_1_0_0.rhsIdx (ix3 bl t s) ((contrEquiv1 dot_S64x64x128_S64x64x128_S64x64x64_2_2_1_1_0_0 128 rfl rfl).symm k))
    = x (ix3 bl t k) * x (ix3 bl s k)
  rw [el, er]

/-! ### The reductions over the last axis and the reads that keep that axis as a unit -/

/-- Inserting coordinate s on the last axis of the pair (b, t) gives the triple (b, t, s). -/
theorem lift_pair (bl t s : Fin 64) :
    reduces_S64x64x64_S64x64.lift (ix2 bl t) s = ix3 bl t s := by
  funext a
  match a with
  | ⟨0, _⟩ => rfl
  | ⟨1, _⟩ => rfl
  | ⟨2, _⟩ => rfl

/-- A 64 × 64 array given a trailing unit axis and repeated along it reads, at (b, t, s), its entry (b, t). -/
theorem keep_read {α : Type} (v : S64x64.Idx → α) (bl t s : Fin 64) :
    broadcastTo S64x64x64 (shapeCast S64x64x1 v shapeCasts_S64x64_S64x64x1) broadcasts_S64x64x1_S64x64x64 (ix3 bl t s)
      = v (ix2 bl t) := by
  refine (broadcastTo_apply _ _ (ix3 bl t s) (ix3 bl t (0 : Fin 1)) (fun a => match a with
    | ⟨0, _⟩ => by show bl.val = (if (64 : Nat) = 1 then 0 else bl.val); rw [if_neg (by decide)]
    | ⟨1, _⟩ => by show t.val = (if (64 : Nat) = 1 then 0 else t.val); rw [if_neg (by decide)]
    | ⟨2, _⟩ => by show 0 = (if (1 : Nat) = 1 then 0 else s.val); rw [if_pos rfl])).trans ?_
  exact shapeCast_apply _ _ (ix3 bl t (0 : Fin 1)) (ix2 bl t) (by
    rw [Shape.rowMajor_val_two, Shape.rowMajor_val_three]
    show bl.val * 64 + t.val = (bl.val * 64 + t.val) * 1 + 0
    omega)

/-- The block's row maximum at (b, t) is the row maximum of token t of row b. -/
theorem ker_rowMax (x : Vec Ideal S64x64x128 .f32) (bl t : Fin 64) :
    kMax (F := Ideal) x (ix2 bl t) = Spec.rowMax (Spec.rowOf (B := 64) x bl) t := by
  have h := Ideal.multiReduction_maximumf_single (kScore (F := Ideal) x) 0xFF800000#32 reduces_S64x64x64_S64x64
    (.inl rfl) rfl (ix2 bl t)
  show max Spec.cNegInf (multiReduction .maximumf [2] S64x64 (kScore (F := Ideal) x) 0xFF800000#32
      reduces_S64x64x64_S64x64 (.inl rfl) rfl (ix2 bl t))
    = max Spec.cNegInf ((Finset.univ : Finset (Fin 64)).fold max Spec.cNegInf
        (fun s => Spec.score (Spec.rowOf (B := 64) x bl) t s))
  refine congrArg (max Spec.cNegInf) ?_
  refine h.trans ?_
  have e : (fun s : Fin 64 => kScore (F := Ideal) x (reduces_S64x64x64_S64x64.lift (ix2 bl t) s))
      = fun s => Spec.score (Spec.rowOf (B := 64) x bl) t s :=
    funext fun s => (congrArg (kScore (F := Ideal) x) (lift_pair bl t s)).trans (ker_score x bl t s)
  exact congrArg (fun f : Fin 64 → EReal => (Finset.univ : Finset (Fin 64)).fold max Spec.cNegInf f) e

/-- The block's exponential at (b, t, s) is that of row b. -/
theorem ker_expo (x : Vec Ideal S64x64x128 .f32) (bl t s : Fin 64) :
    kExp (F := Ideal) x (ix3 bl t s) = Spec.expo (Spec.rowOf (B := 64) x bl) t s := by
  show Ideal.exp (kScore (F := Ideal) x (ix3 bl t s)
      - broadcastTo S64x64x64 (shapeCast S64x64x1 (kMax (F := Ideal) x) shapeCasts_S64x64_S64x64x1)
          broadcasts_S64x64x1_S64x64x64 (ix3 bl t s))
    = Ideal.exp (Spec.score (Spec.rowOf (B := 64) x bl) t s - Spec.rowMax (Spec.rowOf (B := 64) x bl) t)
  rw [keep_read, ker_score, ker_rowMax]

/-- The block's softmax denominator at (b, t) is that of row b. -/
theorem ker_denom (x : Vec Ideal S64x64x128 .f32) (bl t : Fin 64) :
    kDen (F := Ideal) x (ix2 bl t) = Spec.denom (Spec.rowOf (B := 64) x bl) t := by
  have h := Ideal.multiReduction_add_single (kExp (F := Ideal) x) 0x00000000#32 reduces_S64x64x64_S64x64
    (.inl rfl) rfl (ix2 bl t)
  refine h.trans ?_
  have e : (fun s : Fin 64 => kExp (F := Ideal) x (reduces_S64x64x64_S64x64.lift (ix2 bl t) s))
      = fun s => Spec.expo (Spec.rowOf (B := 64) x bl) t s :=
    funext fun s => (congrArg (kExp (F := Ideal) x) (lift_pair bl t s)).trans (ker_expo x bl t s)
  exact congrArg (fun f : Fin 64 → EReal => ∑ s : Fin 64, f s) e

/-- The block's attention weight at (b, t, s) is that of row b. -/
theorem ker_attn (x : Vec Ideal S64x64x128 .f32) (bl t s : Fin 64) :
    kAttn (F := Ideal) x (ix3 bl t s) = Spec.attn (Spec.rowOf (B := 64) x bl) t s := by
  show Ideal.div (kExp (F := Ideal) x (ix3 bl t s))
      (broadcastTo S64x64x64 (shapeCast S64x64x1 (kDen (F := Ideal) x) shapeCasts_S64x64_S64x64x1)
          broadcasts_S64x64x1_S64x64x64 (ix3 bl t s))
    = Ideal.div (Spec.expo (Spec.rowOf (B := 64) x bl) t s) (Spec.denom (Spec.rowOf (B := 64) x bl) t)
  rw [keep_read, ker_expo, ker_denom]

/-! ### The second product: which weight meets which token -/

/-- Left operand, batch axis: the output's batch coordinate. -/
theorem mix_lhs_0 (i : S64x64x128.Idx) (q : dot_S64x64x64_S64x64x128_S64x64x128_2_1_1_2_0_0.contr.Idx) :
    (dot_S64x64x64_S64x64x128_S64x64x128_2_1_1_2_0_0.lhsIdx i q 0).val = (i 0).val := by
  unfold DotDims.lhsIdx
  rw [dif_pos (show (0 : Fin S64x64x64.rank) ∈ dot_S64x64x64_S64x64x128_S64x64x128_2_1_1_2_0_0.lhsBatch by decide)]
  rfl
/-- Left operand, row axis: the output's token coordinate. -/
theorem mix_lhs_1 (i : S64x64x128.Idx) (q : dot_S64x64x64_S64x64x128_S64x64x128_2_1_1_2_0_0.contr.Idx) :
    (dot_S64x64x64_S64x64x128_S64x64x128_2_1_1_2_0_0.lhsIdx i q 1).val = (i 1).val := by
  unfold DotDims.lhsIdx
  rw [dif_neg (show ¬(1 : Fin S64x64x64.rank) ∈ dot_S64x64x64_S64x64x128_S64x64x128_2_1_1_2_0_0.lhsBatch by decide), dif_pos (show (1 : Fin S64x64x64.rank) ∈ dot_S64x64x64_S64x64x128_S64x64x128_2_1_1_2_0_0.lhsNonContracting by decide)]
  rfl
/-- Left operand, column axis: the summation coordinate. -/
theorem mix_lhs_2 (i : S64x64x128.Idx) (q : dot_S64x64x64_S64x64x128_S64x64x128_2_1_1_2_0_0.contr.Idx) :
    (dot_S64x64x64_S64x64x128_S64x64x128_2_1_1_2_0_0.lhsIdx i q 2).val = (q ⟨0, by decide⟩).val :=
  dot_S64x64x64_S64x64x128_S64x64x128_2_1_1_2_0_0.lhsIdx_val_of_single rfl i q
/-- Right operand, batch axis: the output's batch coordinate. -/
theorem mix_rhs_0 (i : S64x64x128.Idx) (q : dot_S64x64x64_S64x64x128_S64x64x128_2_1_1_2_0_0.contr.Idx) :
    (dot_S64x64x64_S64x64x128_S64x64x128_2_1_1_2_0_0.rhsIdx i q 0).val = (i 0).val := by
  unfold DotDims.rhsIdx
  rw [dif_pos (show (0 : Fin S64x64x128.rank) ∈ dot_S64x64x64_S64x64x128_S64x64x128_2_1_1_2_0_0.rhsBatch by decide)]
  rfl
/-- Right operand, token axis: the summation coordinate. -/
theorem mix_rhs_1 (i : S64x64x128.Idx) (q : dot_S64x64x64_S64x64x128_S64x64x128_2_1_1_2_0_0.contr.Idx) :
    (dot_S64x64x64_S64x64x128_S64x64x128_2_1_1_2_0_0.rhsIdx i q 1).val = (q ⟨0, by decide⟩).val :=
  dot_S64x64x64_S64x64x128_S64x64x128_2_1_1_2_0_0.rhsIdx_val_of_single rfl i q
/-- Right operand, feature axis: the output's feature coordinate. -/
theorem mix_rhs_2 (i : S64x64x128.Idx) (q : dot_S64x64x64_S64x64x128_S64x64x128_2_1_1_2_0_0.contr.Idx) :
    (dot_S64x64x64_S64x64x128_S64x64x128_2_1_1_2_0_0.rhsIdx i q 2).val = (i 2).val := by
  unfold DotDims.rhsIdx
  rw [dif_neg (show ¬(2 : Fin S64x64x128.rank) ∈ dot_S64x64x64_S64x64x128_S64x64x128_2_1_1_2_0_0.rhsBatch by decide), dif_pos (show (2 : Fin S64x64x128.rank) ∈ dot_S64x64x64_S64x64x128_S64x64x128_2_1_1_2_0_0.rhsNonContracting by decide)]
  rfl

/-- The kernel's attention output for a block, at (b, t, d), is the attention output of the block's row b. -/
theorem ker_mix (x : Vec Ideal S64x64x128 .f32) (bl t : Fin 64) (d : Fin 128) :
    kMix (F := Ideal) x (ix3 bl t d) = Spec.mix (Spec.rowOf (B := 64) x bl) t d := by
  have h := Ideal.matmul_constant_zero_apply dot_S64x64x64_S64x64x128_S64x64x128_2_1_1_2_0_0 none
    (truncf .bf16 (kAttn (F := Ideal) x) bitsLt_bf16_f32) (truncf .bf16 x bitsLt_bf16_f32) (ix3 bl t d)
  show (FloatOps.matmul (F := Ideal) dot_S64x64x64_S64x64x128_S64x64x128_2_1_1_2_0_0 none (truncf .bf16 (kAttn (F := Ideal) x) bitsLt_bf16_f32) (truncf .bf16 x bitsLt_bf16_f32)
      (constant S64x64x128 .f32 0x00000000#32) (ix3 bl t d) : EReal)
    = ∑ s : Fin 64, Spec.attn (Spec.rowOf (B := 64) x bl) t s * x (ix3 bl s d)
  refine h.trans ?_
  rw [← Equiv.sum_comp (contrEquiv1 dot_S64x64x64_S64x64x128_S64x64x128_2_1_1_2_0_0 64 rfl rfl).symm]
  refine Finset.sum_congr rfl fun k _ => ?_
  have hk := contrEquiv1_symm_val dot_S64x64x64_S64x64x128_S64x64x128_2_1_1_2_0_0 64 rfl rfl k
  have el : dot_S64x64x64_S64x64x128_S64x64x128_2_1_1_2_0_0.lhsIdx (ix3 bl t d) ((contrEquiv1 dot_S64x64x64_S64x64x128_S64x64x128_2_1_1_2_0_0 64 rfl rfl).symm k) = ix3 bl t k :=
    funext fun a => Fin.ext (by
      match a with
      | ⟨0, _⟩ => exact mix_lhs_0 _ _
      | ⟨1, _⟩ => exact mix_lhs_1 _ _
      | ⟨2, _⟩ => exact (mix_lhs_2 _ _).trans hk)
  have er : dot_S64x64x64_S64x64x128_S64x64x128_2_1_1_2_0_0.rhsIdx (ix3 bl t d) ((contrEquiv1 dot_S64x64x64_S64x64x128_S64x64x128_2_1_1_2_0_0 64 rfl rfl).symm k) = ix3 bl k d :=
    funext fun a => Fin.ext (by
      match a with
      | ⟨0, _⟩ => exact mix_rhs_0 _ _
      | ⟨1, _⟩ => exact (mix_rhs_1 _ _).trans hk
      | ⟨2, _⟩ => exact mix_rhs_2 _ _)
  show kAttn (F := Ideal) x (dot_S64x64x64_S64x64x128_S64x64x128_2_1_1_2_0_0.lhsIdx (ix3 bl t d) ((contrEquiv1 dot_S64x64x64_S64x64x128_S64x64x128_2_1_1_2_0_0 64 rfl rfl).symm k))
      * x (dot_S64x64x64_S64x64x128_S64x64x128_2_1_1_2_0_0.rhsIdx (ix3 bl t d) ((contrEquiv1 dot_S64x64x64_S64x64x128_S64x64x128_2_1_1_2_0_0 64 rfl rfl).symm k))
    = Spec.attn (Spec.rowOf (B := 64) x bl) t k * x (ix3 bl k d)
  rw [el, er, ker_attn]

end Cert.KerBridge

end
-- ==== Proof.KerMlp.lean ====
import proofs.«173511_j24764781429079_1_alg».proof.Proof.KerStages
import proofs.«173511_j24764781429079_1_alg».proof.Proof.Spec
import Idealize.ShloMosaic.Lib.Pipeline.Value
import Idealize.ShloMosaic.PureOps.Ideal.Laws

noncomputable section

open scoped BigOperators

namespace Cert.KerBridge

open Cert.KernelIdeal Cert.KernelIdeal.Gen Idealize.ShloMosaic Idealize.ShloMosaic.ValueIdx

/-- The block reshaped to one row of 8192 numbers per batch row reads, at (b, k), the flattened row b at k. -/
theorem ker_flat (x : Vec Ideal S64x64x128 .f32) (bl : Fin 64) (k : Fin 8192) :
    shapeCast S64x8192 x shapeCasts_S64x64x128_S64x8192 (ix2 bl k) = Spec.flat (Spec.rowOf (B := 64) x bl) k := by
  refine (shapeCast_apply x shapeCasts_S64x64x128_S64x8192 (ix2 bl k)
    (ix3 bl ⟨k.val / 128, by have := k.isLt; omega⟩ ⟨k.val % 128, Nat.mod_lt _ (by decide)⟩) ?_).trans rfl
  rw [Shape.rowMajor_val_three, Shape.rowMajor_val_two]
  have h0 := k.isLt
  have h1 := bl.isLt
  show (bl.val * 64 + k.val / 128) * 128 + k.val % 128 = bl.val * 8192 + k.val
  omega

/-- Left operand's index in the hidden layer's product: its row is the result's row. -/
theorem lhs_mlp1_0 (i : S64x128.Idx) (q : dot_S64x8192_S8192x128_S64x128_1_0_0_1_n_n.contr.Idx) :
    (dot_S64x8192_S8192x128_S64x128_1_0_0_1_n_n.lhsIdx i q 0).val = (i 0).val := by
  unfold DotDims.lhsIdx
  rw [dif_neg (show ¬(0 : Fin S64x8192.rank) ∈ dot_S64x8192_S8192x128_S64x128_1_0_0_1_n_n.lhsBatch by decide), dif_pos (show (0 : Fin S64x8192.rank) ∈ dot_S64x8192_S8192x128_S64x128_1_0_0_1_n_n.lhsNonContracting by decide)]
  rfl
/-- Left operand's index in the hidden layer's product: its column is the summation index. -/
theorem lhs_mlp1_1 (i : S64x128.Idx) (q : dot_S64x8192_S8192x128_S64x128_1_0_0_1_n_n.contr.Idx) :
    (dot_S64x8192_S8192x128_S64x128_1_0_0_1_n_n.lhsIdx i q 1).val = (q ⟨0, by decide⟩).val :=
  dot_S64x8192_S8192x128_S64x128_1_0_0_1_n_n.lhsIdx_val_of_single rfl i q
/-- Right operand's index in the hidden layer's product: its row is the summation index. -/
theorem rhs_mlp1_0 (i : S64x128.Idx) (q : dot_S64x8192_S8192x128_S64x128_1_0_0_1_n_n.contr.Idx) :
    (dot_S64x8192_S8192x128_S64x128_1_0_0_1_n_n.rhsIdx i q 0).val = (q ⟨0, by decide⟩).val :=
  dot_S64x8192_S8192x128_S64x128_1_0_0_1_n_n.rhsIdx_val_of_single rfl i q
/-- Right operand's index in the hidden layer's product: its column is the result's column. -/
theorem rhs_mlp1_1 (i : S64x128.Idx) (q : dot_S64x8192_S8192x128_S64x128_1_0_0_1_n_n.contr.Idx) :
    (dot_S64x8192_S8192x128_S64x128_1_0_0_1_n_n.rhsIdx i q 1).val = (i 1).val := by
  unfold DotDims.rhsIdx
  rw [dif_neg (show ¬(1 : Fin S8192x128.rank) ∈ dot_S64x8192_S8192x128_S64x128_1_0_0_1_n_n.rhsBatch by decide), dif_pos (show (1 : Fin S8192x128.rank) ∈ dot_S64x8192_S8192x128_S64x128_1_0_0_1_n_n.rhsNonContracting by decide)]
  rfl

/-- The hidden layer's product into a zero accumulator, read at (b, j): the sum over the shared axis of row b of the left
    operand against column j of the right one. -/
theorem ker_mm_mlp1 (y0 : FVec Ideal S64x8192 .bf16) (y1 : FVec Ideal S8192x128 .bf16) (bl : Fin 64) (j : Fin 128) :
    matmul dot_S64x8192_S8192x128_S64x128_1_0_0_1_n_n none y0 y1 (constant S64x128 .f32 0x00000000#32) (ix2 bl j)
      = ∑ k : Fin 8192, y0 (ix2 bl k) * y1 (ix2 k j) := by
  refine (Ideal.matmul_constant_zero_apply dot_S64x8192_S8192x128_S64x128_1_0_0_1_n_n none y0 y1 (ix2 bl j)).trans ?_
  rw [← Equiv.sum_comp (ValueIdx.contrEquiv1 dot_S64x8192_S8192x128_S64x128_1_0_0_1_n_n 8192 rfl rfl).symm]
  refine Finset.sum_congr rfl fun k _ => ?_
  have hk := ValueIdx.contrEquiv1_symm_val dot_S64x8192_S8192x128_S64x128_1_0_0_1_n_n 8192 rfl rfl k
  have el : dot_S64x8192_S8192x128_S64x128_1_0_0_1_n_n.lhsIdx (ix2 bl j) ((ValueIdx.contrEquiv1 dot_S64x8192_S8192x128_S64x128_1_0_0_1_n_n 8192 rfl rfl).symm k) = ix2 bl k := funext fun a => Fin.ext (by
    match a with
    | ⟨0, _⟩ => exact lhs_mlp1_0 _ _
    | ⟨1, _⟩ => exact (lhs_mlp1_1 _ _).trans hk)
  have er : dot_S64x8192_S8192x128_S64x128_1_0_0_1_n_n.rhsIdx (ix2 bl j) ((ValueIdx.contrEquiv1 dot_S64x8192_S8192x128_S64x128_1_0_0_1_n_n 8192 rfl rfl).symm k) = ix2 k j := funext fun a => Fin.ext (by
    match a with
    | ⟨0, _⟩ => exact (rhs_mlp1_0 _ _).trans hk
    | ⟨1, _⟩ => exact rhs_mlp1_1 _ _)
  rw [el, er]

/-- Left operand's index in the output layer's product: its row is the result's row. -/
theorem lhs_mlp2_0 (i : S64x8192.Idx) (q : dot_S64x128_S128x8192_S64x8192_1_0_0_1_n_n.contr.Idx) :
    (dot_S64x128_S128x8192_S64x8192_1_0_0_1_n_n.lhsIdx i q 0).val = (i 0).val := by
  unfold DotDims.lhsIdx
  rw [dif_neg (show ¬(0 : Fin S64x128.rank) ∈ dot_S64x128_S128x8192_S64x8192_1_0_0_1_n_n.lhsBatch by decide), dif_pos (show (0 : Fin S64x128.rank) ∈ dot_S64x128_S128x8192_S64x8192_1_0_0_1_n_n.lhsNonContracting by decide)]
  rfl
/-- Left operand's index in the output layer's product: its column is the summation index. -/
theorem lhs_mlp2_1 (i : S64x8192.Idx) (q : dot_S64x128_S128x8192_S64x8192_1_0_0_1_n_n.contr.Idx) :
    (dot_S64x128_S128x8192_S64x8192_1_0_0_1_n_n.lhsIdx i q 1).val = (q ⟨0, by decide⟩).val :=
  dot_S64x128_S128x8192_S64x8192_1_0_0_1_n_n.lhsIdx_val_of_single rfl i q
/-- Right operand's index in the output layer's product: its row is the summation index. -/
theorem rhs_mlp2_0 (i : S64x8192.Idx) (q : dot_S64x128_S128x8192_S64x8192_1_0_0_1_n_n.contr.Idx) :
    (dot_S64x128_S128x8192_S64x8192_1_0_0_1_n_n.rhsIdx i q 0).val = (q ⟨0, by decide⟩).val :=
  dot_S64x128_S128x8192_S64x8192_1_0_0_1_n_n.rhsIdx_val_of_single rfl i q
/-- Right operand's index in the output layer's product: its column is the result's column. -/
theorem rhs_mlp2_1 (i : S64x8192.Idx) (q : dot_S64x128_S128x8192_S64x8192_1_0_0_1_n_n.contr.Idx) :
    (dot_S64x128_S128x8192_S64x8192_1_0_0_1_n_n.rhsIdx i q 1).val = (i 1).val := by
  unfold DotDims.rhsIdx
  rw [dif_neg (show ¬(1 : Fin S128x8192.rank) ∈ dot_S64x128_S128x8192_S64x8192_1_0_0_1_n_n.rhsBatch by decide), dif_pos (show (1 : Fin S128x8192.rank) ∈ dot_S64x128_S128x8192_S64x8192_1_0_0_1_n_n.rhsNonContracting by decide)]
  rfl

/-- The output layer's product into a zero accumulator, read at (b, j): the sum over the shared axis of row b of the left
    operand against column j of the right one. -/
theorem ker_mm_mlp2 (y0 : FVec Ideal S64x128 .bf16) (y1 : FVec Ideal S128x8192 .bf16) (bl : Fin 64) (j : Fin 8192) :
    matmul dot_S64x128_S128x8192_S64x8192_1_0_0_1_n_n none y0 y1 (constant S64x8192 .f32 0x00000000#32) (ix2 bl j)
      = ∑ k : Fin 128, y0 (ix2 bl k) * y1 (ix2 k j) := by
  refine (Ideal.matmul_constant_zero_apply dot_S64x128_S128x8192_S64x8192_1_0_0_1_n_n none y0 y1 (ix2 bl j)).trans ?_
  rw [← Equiv.sum_comp (ValueIdx.contrEquiv1 dot_S64x128_S128x8192_S64x8192_1_0_0_1_n_n 128 rfl rfl).symm]
  refine Finset.sum_congr rfl fun k _ => ?_
  have hk := ValueIdx.contrEquiv1_symm_val dot_S64x128_S128x8192_S64x8192_1_0_0_1_n_n 128 rfl rfl k
  have el : dot_S64x128_S128x8192_S64x8192_1_0_0_1_n_n.lhsIdx (ix2 bl j) ((ValueIdx.contrEquiv1 dot_S64x128_S128x8192_S64x8192_1_0_0_1_n_n 128 rfl rfl).symm k) = ix2 bl k := funext fun a => Fin.ext (by
    match a with
    | ⟨0, _⟩ => exact lhs_mlp2_0 _ _
    | ⟨1, _⟩ => exact (lhs_mlp2_1 _ _).trans hk)
  have er : dot_S64x128_S128x8192_S64x8192_1_0_0_1_n_n.rhsIdx (ix2 bl j) ((ValueIdx.contrEquiv1 dot_S64x128_S128x8192_S64x8192_1_0_0_1_n_n 128 rfl rfl).symm k) = ix2 k j := funext fun a => Fin.ext (by
    match a with
    | ⟨0, _⟩ => exact (rhs_mlp2_0 _ _).trans hk
    | ⟨1, _⟩ => exact rhs_mlp2_1 _ _)
  rw [el, er]

/-- The hidden layer's bias, made a one-row array and repeated down the rows, reads at (b, j) the bias's entry j. -/
theorem ker_bias_mlp1 (v : Vec Ideal S128 .f32) (bl : Fin 64) (j : Fin 128) :
    broadcastTo S64x128 (shapeCast S1x128 v shapeCasts_S128_S1x128) broadcasts_S1x128_S64x128 (ix2 bl j) = v (ix1 j) := by
  refine (broadcastTo_apply (shapeCast S1x128 v shapeCasts_S128_S1x128) broadcasts_S1x128_S64x128 (ix2 bl j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])).trans ?_
  refine shapeCast_apply v shapeCasts_S128_S1x128 (ix2 (0 : Fin 1) j) (ix1 j) ?_
  rw [Shape.rowMajor_val_one, Shape.rowMajor_val_two]
  show j.val = 0 * 128 + j.val
  omega

/-- The output layer's bias, made a one-row array and repeated down the rows, reads at (b, j) the bias's entry j. -/
theorem ker_bias_mlp2 (v : Vec Ideal S8192 .f32) (bl : Fin 64) (j : Fin 8192) :
    broadcastTo S64x8192 (shapeCast S1x8192 v shapeCasts_S8192_S1x8192) broadcasts_S1x8192_S64x8192 (ix2 bl j) = v (ix1 j) := by
  refine (broadcastTo_apply (shapeCast S1x8192 v shapeCasts_S8192_S1x8192) broadcasts_S1x8192_S64x8192 (ix2 bl j) (ix2 (0 : Fin 1) j) (fun a => match a with
    | ⟨0, _⟩ => by show 0 = if (1 : Nat) = 1 then 0 else _; rw [if_pos rfl]
    | ⟨1, _⟩ => by show j.val = if (8192 : Nat) = 1 then 0 else j.val; rw [if_neg (by decide)])).trans ?_
  refine shapeCast_apply v shapeCasts_S8192_S1x8192 (ix2 (0 : Fin 1) j) (ix1 j) ?_
  rw [Shape.rowMajor_val_one, Shape.rowMajor_val_two]
  show j.val = 0 * 8192 + j.val
  omega

/-- The kernel's hidden layer at (b, j) is the hidden layer of row b at j. -/
theorem ker_hidden (x : Vec Ideal S64x64x128 .f32) (w1t : Vec Ideal S8192x128 .f32) (b1 : Vec Ideal S128 .f32)
    (bl : Fin 64) (j : Fin 128) :
    kHidden (F := Ideal) x w1t b1 (ix2 bl j)
      = Spec.hidden (Spec.rowOf (B := 64) x bl) (Spec.matT w1t) (Spec.vec b1) j := by
  unfold kHidden
  rw [maximumf_apply, addf_apply, ker_mm_mlp1, ker_bias_mlp1, shapeCast_self]
  unfold Spec.hidden
  refine congrArg₂ max (congrArg₂ (· + ·) (Finset.sum_congr rfl fun k _ => ?_) rfl) rfl
  exact congrArg₂ (· * ·) (ker_flat x bl k) rfl

/-- The kernel's perceptron output for a block, at (b, t, d), is the perceptron's output of the block's row b at the
    flattened position of (t, d); the two weight blocks arrive transposed. -/
theorem ker_deep (x : Vec Ideal S64x64x128 .f32) (w1t : Vec Ideal S8192x128 .f32) (b1 : Vec Ideal S128 .f32)
    (w2t : Vec Ideal S128x8192 .f32) (b2 : Vec Ideal S8192 .f32) (bl t : Fin 64) (d : Fin 128) :
    kDeep (F := Ideal) x w1t b1 w2t b2 (ix3 bl t d)
      = Spec.deep (Spec.rowOf (B := 64) x bl) (Spec.matT w1t) (Spec.vec b1) (Spec.matT w2t) (Spec.vec b2) (Spec.flatIx t d) := by
  unfold kDeep
  refine (shapeCast_apply _ shapeCasts_S64x8192_S64x64x128 (ix3 bl t d) (ix2 bl (Spec.flatIx t d)) ?_).trans ?_
  · rw [Shape.rowMajor_val_three, Shape.rowMajor_val_two]
    have h0 := bl.isLt
    have h1 := t.isLt
    have h2 := d.isLt
    show bl.val * 8192 + (t.val * 128 + d.val) = (bl.val * 64 + t.val) * 128 + d.val
    omega
  · rw [addf_apply, ker_mm_mlp2, ker_bias_mlp2, shapeCast_self]
    unfold Spec.deep
    refine congrArg₂ (· + ·) (Finset.sum_congr rfl fun k _ => ?_) rfl
    exact congrArg₂ (· * ·) (ker_hidden x w1t b1 bl k) rfl

end Cert.KerBridge

end
-- ==== Proof.KerOut.lean ====
import proofs.«173511_j24764781429079_1_alg».proof.Proof.KerAttn
import proofs.«173511_j24764781429079_1_alg».proof.Proof.KerMlp
import proofs.«173511_j24764781429079_1_alg».proof.Proof.Gen.KernelIdeal.Value

noncomputable section

open scoped BigOperators

namespace Cert.KerBridge

open Cert.KernelIdeal Cert.KernelIdeal.Gen Idealize.ShloMosaic Idealize.ShloMosaic.ValueIdx

/-- The residual sum the body normalises, at (b, t, d): attention output plus perceptron output plus the row itself. -/
theorem out_resid (x0 : Vec Ideal S64x64x128 .f32) (x1 : Vec Ideal S8192x128 .f32) (x2 : Vec Ideal S128 .f32)
    (x3 : Vec Ideal S128x8192 .f32) (x4 : Vec Ideal S8192 .f32) (bl t : Fin 64) (d : Fin 128) :
    (addf (k0_pay2 (F := Ideal) x0 x1 x2 x3 x4) x0) (ix3 bl t d)
      = Spec.resid (Spec.rowOf (B := 64) x0 bl) (Spec.matT x1) (Spec.vec x2) (Spec.matT x3) (Spec.vec x4) t d := by
  rw [pay2_eq]
  show kMix x0 (ix3 bl t d) + kDeep x0 x1 x2 x3 x4 (ix3 bl t d) + x0 (ix3 bl t d) = _
  rw [ker_mix, ker_deep]
  rfl

/-- The first reduction: the sum of the residual over the feature axis. -/
theorem out_sum1 (x0 : Vec Ideal S64x64x128 .f32) (x1 : Vec Ideal S8192x128 .f32) (x2 : Vec Ideal S128 .f32)
    (x3 : Vec Ideal S128x8192 .f32) (x4 : Vec Ideal S8192 .f32) (bl t : Fin 64) :
    (multiReduction (F := Ideal) .add [2] S64x64 (addf (k0_pay2 x0 x1 x2 x3 x4) x0) 0x00000000#32 reduces_S64x64x128_S64x64 (.inl rfl) rfl) (ix2 bl t)
      = ∑ d : Fin 128, Spec.resid (Spec.rowOf (B := 64) x0 bl) (Spec.matT x1) (Spec.vec x2) (Spec.matT x3) (Spec.vec x4) t d := by
  refine (Ideal.multiReduction_add_single _ _ reduces_S64x64x128_S64x64 _ _ (ix2 bl t)).trans ?_
  show ∑ d : Fin 128, _ = _
  refine Finset.sum_congr rfl fun d _ => ?_
  refine Eq.trans ?_ (out_resid x0 x1 x2 x3 x4 bl t d)
  refine congrArg _ ?_
  funext a
  match a with
  | ⟨0, _⟩ => exact Fin.ext rfl
  | ⟨1, _⟩ => exact Fin.ext rfl
  | ⟨2, _⟩ => exact Fin.ext rfl

/-- A sum over the feature axis of a 64 × 64 × 128 block, read at (b, t): the sum over the 128 features. -/
theorem out_sum_feat (v : FVec Ideal S64x64x128 .f32) (bl t : Fin 64) :
    (multiReduction (F := Ideal) .add [2] S64x64 v 0x00000000#32 reduces_S64x64x128_S64x64 (.inl rfl) rfl) (ix2 bl t)
      = ∑ d : Fin 128, v (ix3 bl t d) := by
  refine (Ideal.multiReduction_add_single v _ reduces_S64x64x128_S64x64 _ _ (ix2 bl t)).trans ?_
  show ∑ d : Fin 128, _ = _
  refine Finset.sum_congr rfl fun d _ => ?_
  refine congrArg v ?_
  funext a
  match a with
  | ⟨0, _⟩ => exact Fin.ext rfl
  | ⟨1, _⟩ => exact Fin.ext rfl
  | ⟨2, _⟩ => exact Fin.ext rfl

/-- A per-token quantity divided by a constant and spread back over the features, read at (b, t, d): the quotient
    at (b, t), whatever the feature. -/
theorem out_keep_div (s : FVec Ideal S64x64 .f32) (c : Ideal .f32) (bl t : Fin 64) (d : Fin 128) :
    (broadcastTo S64x64x128 (divf (shapeCast S64x64x1 s shapeCasts_S64x64_S64x64x1) (broadcast S64x64x1 c)) broadcasts_S64x64x1_S64x64x128) (ix3 bl t d)
      = Ideal.div (s (ix2 bl t)) c := by
  refine (broadcastTo_apply _ _ (ix3 bl t d) (ix3 bl t (0 : Fin 1)) (fun a => match a with
    | ⟨0, _⟩ => by show bl.val = (if (64 : Nat) = 1 then 0 else bl.val); rw [if_neg (by decide)]
    | ⟨1, _⟩ => by show t.val = (if (64 : Nat) = 1 then 0 else t.val); rw [if_neg (by decide)]
    | ⟨2, _⟩ => by show 0 = (if (1 : Nat) = 1 then 0 else d.val); rw [if_pos rfl])).trans ?_
  show Ideal.div ((shapeCast S64x64x1 s shapeCasts_S64x64_S64x64x1) (ix3 bl t (0 : Fin 1))) c = _
  refine congrArg (fun z => Ideal.div z c) ?_
  refine shapeCast_apply _ _ (ix3 bl t (0 : Fin 1)) (ix2 bl t) ?_
  rw [Shape.rowMajor_val_two, Shape.rowMajor_val_three]
  show bl.val * 64 + t.val = (bl.val * 64 + t.val) * 1 + 0
  omega

/-- The residual with its feature mean subtracted, at (b, t, d). -/
theorem out_centred (x0 : Vec Ideal S64x64x128 .f32) (x1 : Vec Ideal S8192x128 .f32) (x2 : Vec Ideal S128 .f32)
    (x3 : Vec Ideal S128x8192 .f32) (x4 : Vec Ideal S8192 .f32) (bl t : Fin 64) (d : Fin 128) :
    (subf (addf (k0_pay2 x0 x1 x2 x3 x4) x0) (broadcastTo S64x64x128 (divf (shapeCast S64x64x1 (multiReduction (F := Ideal) .add [2] S64x64 (addf (k0_pay2 x0 x1 x2 x3 x4) x0) 0x00000000#32 reduces_S64x64x128_S64x64 (.inl rfl) rfl) shapeCasts_S64x64_S64x64x1) (broadcast S64x64x1 (Scalar.ofBits .f32 0x43000000#32))) broadcasts_S64x64x1_S64x64x128)) (ix3 bl t d)
      = Spec.resid (Spec.rowOf (B := 64) x0 bl) (Spec.matT x1) (Spec.vec x2) (Spec.matT x3) (Spec.vec x4) t d - Spec.mean (Spec.rowOf (B := 64) x0 bl) (Spec.matT x1) (Spec.vec x2) (Spec.matT x3) (Spec.vec x4) t := by
  show (addf (k0_pay2 x0 x1 x2 x3 x4) x0) (ix3 bl t d) - _ = _
  rw [out_resid, out_keep_div, out_sum1]
  rfl

/-- The second reduction: the sum over the features of the squared centred residual. -/
theorem out_sum2 (x0 : Vec Ideal S64x64x128 .f32) (x1 : Vec Ideal S8192x128 .f32) (x2 : Vec Ideal S128 .f32)
    (x3 : Vec Ideal S128x8192 .f32) (x4 : Vec Ideal S8192 .f32) (bl t : Fin 64) :
    (multiReduction (F := Ideal) .add [2] S64x64 (mulf (subf (addf (k0_pay2 x0 x1 x2 x3 x4) x0) (broadcastTo S64x64x128 (divf (shapeCast S64x64x1 (multiReduction (F := Ideal) .add [2] S64x64 (addf (k0_pay2 x0 x1 x2 x3 x4) x0) 0x00000000#32 reduces_S64x64x128_S64x64 (.inl rfl) rfl) shapeCasts_S64x64_S64x64x1) (broadcast S64x64x1 (Scalar.ofBits .f32 0x43000000#32))) broadcasts_S64x64x1_S64x64x128)) (subf (addf (k0_pay2 x0 x1 x2 x3 x4) x0) (broadcastTo S64x64x128 (divf (shapeCast S64x64x1 (multiReduction (F := Ideal) .add [2] S64x64 (addf (k0_pay2 x0 x1 x2 x3 x4) x0) 0x00000000#32 reduces_S64x64x128_S64x64 (.inl rfl) rfl) shapeCasts_S64x64_S64x64x1) (broadcast S64x64x1 (Scalar.ofBits .f32 0x43000000#32))) broadcasts_S64x64x1_S64x64x128))) 0x00000000#32 reduces_S64x64x128_S64x64 (.inl rfl) rfl) (ix2 bl t)
      = ∑ d : Fin 128, (Spec.resid (Spec.rowOf (B := 64) x0 bl) (Spec.matT x1) (Spec.vec x2) (Spec.matT x3) (Spec.vec x4) t d - Spec.mean (Spec.rowOf (B := 64) x0 bl) (Spec.matT x1) (Spec.vec x2) (Spec.matT x3) (Spec.vec x4) t)
          * (Spec.resid (Spec.rowOf (B := 64) x0 bl) (Spec.matT x1) (Spec.vec x2) (Spec.matT x3) (Spec.vec x4) t d - Spec.mean (Spec.rowOf (B := 64) x0 bl) (Spec.matT x1) (Spec.vec x2) (Spec.matT x3) (Spec.vec x4) t) := by
  refine (out_sum_feat _ bl t).trans ?_
  refine Finset.sum_congr rfl fun d _ => ?_
  show (subf (addf (k0_pay2 x0 x1 x2 x3 x4) x0) (broadcastTo S64x64x128 (divf (shapeCast S64x64x1 (multiReduction (F := Ideal) .add [2] S64x64 (addf (k0_pay2 x0 x1 x2 x3 x4) x0) 0x00000000#32 reduces_S64x64x128_S64x64 (.inl rfl) rfl) shapeCasts_S64x64_S64x64x1) (broadcast S64x64x1 (Scalar.ofBits .f32 0x43000000#32))) broadcasts_S64x64x1_S64x64x128)) (ix3 bl t d) * (subf (addf (k0_pay2 x0 x1 x2 x3 x4) x0) (broadcastTo S64x64x128 (divf (shapeCast S64x64x1 (multiReduction (F := Ideal) .add [2] S64x64 (addf (k0_pay2 x0 x1 x2 x3 x4) x0) 0x00000000#32 reduces_S64x64x128_S64x64 (.inl rfl) rfl) shapeCasts_S64x64_S64x64x1) (broadcast S64x64x1 (Scalar.ofBits .f32 0x43000000#32))) broadcasts_S64x64x1_S64x64x128)) (ix3 bl t d) = _
  rw [out_centred]

/-- The six places the pointwise form reads its operands, at the block index (b, t, d). -/
theorem out_rd0 (bl t : Fin 64) (d : Fin 128) : Value.ix7_0 (ix3 bl t d) = ix3 bl t d := by
  funext a; match a with | ⟨0, _⟩ => rfl | ⟨1, _⟩ => rfl | ⟨2, _⟩ => rfl
theorem out_rd1 (bl t : Fin 64) (d : Fin 128) : Value.ix7_1 (ix3 bl t d) = ix3 bl t d := by
  funext a; match a with | ⟨0, _⟩ => rfl | ⟨1, _⟩ => rfl | ⟨2, _⟩ => rfl
theorem out_rd2 (bl t : Fin 64) (d : Fin 128) : Value.ix7_2 (ix3 bl t d) = ix2 bl t := by
  funext a; match a with | ⟨0, _⟩ => rfl | ⟨1, _⟩ => rfl
theorem out_rd3 (bl t : Fin 64) (d : Fin 128) : Value.ix7_3 (ix3 bl t d) = ix2 bl t := by
  funext a; match a with | ⟨0, _⟩ => rfl | ⟨1, _⟩ => rfl
theorem out_rd4 (bl t : Fin 64) (d : Fin 128) : Value.ix7_4 (ix3 bl t d) = ix1 d := by
  funext a; match a with | ⟨0, _⟩ => rfl
theorem out_rd5 (bl t : Fin 64) (d : Fin 128) : Value.ix7_5 (ix3 bl t d) = ix1 d := by
  funext a; match a with | ⟨0, _⟩ => rfl

theorem out_zeros3 : (![0, 0, 0] : Fin 3 → Nat) = fun _ => 0 := by
  funext a; match a with | ⟨0, _⟩ => rfl | ⟨1, _⟩ => rfl | ⟨2, _⟩ => rfl
theorem out_zeros2 : (![0, 0] : Fin 2 → Nat) = fun _ => 0 := by
  funext a; match a with | ⟨0, _⟩ => rfl | ⟨1, _⟩ => rfl
theorem out_zeros1 : (![0] : Fin 1 → Nat) = fun _ => 0 := by
  funext a; match a with | ⟨0, _⟩ => rfl

/-- What the body leaves in the output block, entry by entry: the specification's result for the block's row. -/
theorem ker_out (x0 : Vec Ideal S64x64x128 .f32) (x1 : Vec Ideal S8192x128 .f32) (x2 : Vec Ideal S128 .f32)
    (x3 : Vec Ideal S128x8192 .f32) (x4 : Vec Ideal S8192 .f32) (x5 x6 : Vec Ideal S128 .f32) (y : S64x64x128.Idx) :
    out0_7 (F := Ideal) x0 x1 x2 x3 x4 x5 x6 y
      = Spec.out (Spec.rowOf (B := 64) x0 (y 0)) (Spec.matT x1) (Spec.vec x2) (Spec.matT x3) (Spec.vec x4) (Spec.vec x5) (Spec.vec x6) (y 1) (y 2) := by
  have e0 : View.ld x0 r0_0 = x0 := View.ld_unit_zero (S := S64x64x128) out_zeros3 _ x0
  have e1 : View.ld x1 r0_1 = x1 := View.ld_unit_zero (S := S8192x128) out_zeros2 _ x1
  have e2 : View.ld x2 r0_2 = x2 := View.ld_unit_zero (S := S128) out_zeros1 _ x2
  have e3 : View.ld x3 r0_3 = x3 := View.ld_unit_zero (S := S128x8192) out_zeros2 _ x3
  have e4 : View.ld x4 r0_4 = x4 := View.ld_unit_zero (S := S8192) out_zeros1 _ x4
  have e5 : View.ld x5 r0_2 = x5 := View.ld_unit_zero (S := S128) out_zeros1 _ x5
  have e6 : View.ld x6 r0_2 = x6 := View.ld_unit_zero (S := S128) out_zeros1 _ x6
  unfold out0_7
  rw [e0, e1, e2, e3, e4, e5, e6, Value.canon7_eq]
  obtain ⟨bl, t, d, rfl⟩ : ∃ bl t d, y = ix3 bl t d := ⟨_, _, _, eq_ix3 y⟩
  -- the pointwise form, with every operand read at its own place
  show ((k0_pay2 x0 x1 x2 x3 x4) (Value.ix7_0 (ix3 bl t d)) + x0 (Value.ix7_1 (ix3 bl t d))
        - Ideal.div ((multiReduction (F := Ideal) .add [2] S64x64 (addf (k0_pay2 x0 x1 x2 x3 x4) x0) 0x00000000#32 reduces_S64x64x128_S64x64 (.inl rfl) rfl) (Value.ix7_2 (ix3 bl t d))) (Ideal.ofBits .f32 0x43000000#32))
      * Ideal.rsqrt (Ideal.div ((multiReduction (F := Ideal) .add [2] S64x64 (mulf (subf (addf (k0_pay2 x0 x1 x2 x3 x4) x0) (broadcastTo S64x64x128 (divf (shapeCast S64x64x1 (multiReduction (F := Ideal) .add [2] S64x64 (addf (k0_pay2 x0 x1 x2 x3 x4) x0) 0x00000000#32 reduces_S64x64x128_S64x64 (.inl rfl) rfl) shapeCasts_S64x64_S64x64x1) (broadcast S64x64x1 (Scalar.ofBits .f32 0x43000000#32))) broadcasts_S64x64x1_S64x64x128)) (subf (addf (k0_pay2 x0 x1 x2 x3 x4) x0) (broadcastTo S64x64x128 (divf (shapeCast S64x64x1 (multiReduction (F := Ideal) .add [2] S64x64 (addf (k0_pay2 x0 x1 x2 x3 x4) x0) 0x00000000#32 reduces_S64x64x128_S64x64 (.inl rfl) rfl) shapeCasts_S64x64_S64x64x1) (broadcast S64x64x1 (Scalar.ofBits .f32 0x43000000#32))) broadcasts_S64x64x1_S64x64x128))) 0x00000000#32 reduces_S64x64x128_S64x64 (.inl rfl) rfl) (Value.ix7_3 (ix3 bl t d))) (Ideal.ofBits .f32 0x43000000#32) + Ideal.ofBits .f32 0x3727C5AC#32)
      * x5 (Value.ix7_4 (ix3 bl t d)) + x6 (Value.ix7_5 (ix3 bl t d))
    = Spec.out (Spec.rowOf (B := 64) x0 bl) (Spec.matT x1) (Spec.vec x2) (Spec.matT x3) (Spec.vec x4) (Spec.vec x5) (Spec.vec x6) t d
  rw [out_rd0, out_rd1, out_rd2, out_rd3, out_rd4, out_rd5, out_sum1, out_sum2]
  have hR : (k0_pay2 x0 x1 x2 x3 x4) (ix3 bl t d) + x0 (ix3 bl t d)
      = Spec.resid (Spec.rowOf (B := 64) x0 bl) (Spec.matT x1) (Spec.vec x2) (Spec.matT x3) (Spec.vec x4) t d := out_resid x0 x1 x2 x3 x4 bl t d
  rw [hR]
  rfl

end Cert.KerBridge

end
-- ==== Proof.Blocks.lean ====
import proofs.«173511_j24764781429079_1_alg».proof.Proof.KerOut
import proofs.«173511_j24764781429079_1_alg».proof.Proof.Gen.KernelIdeal.Value
import Idealize.ShloMosaic.Lib.Pipeline.Value

noncomputable section

open scoped BigOperators

namespace Cert.KerBridge

open Cert.KernelIdeal Cert.KernelIdeal.Gen Cert.KernelIdeal.Value Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Over the 64 grid points: the batch window and the result window sit at block (t, 0, 0), every other window at
    block 0. -/
theorem idx_facts : ∀ t : Fin cfg0.N,
    win0_7.index t (0 : Fin 3) = t.val ∧ win0_7.index t (1 : Fin 3) = 0 ∧ win0_7.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0 :=
  (by decide +kernel : ∀ t : Fin grid0.N, _)

/-- The first staged weight array is the first weight argument with its coordinates exchanged. -/
theorem V_v0_apply (c : Dev nD) (k : Fin 8192) (j : Fin 128) :
    V m c main_v0 (ix2 k j) = m ((c : Thread nD τ).loc main_arg1) (ix2 j k) := by
  have e : (V m c main_v0 : S8192x128.Idx → EReal)
      = transpose S8192x128 [1, 0] (m ((c : Thread nD τ).loc main_arg1)) transposes_S128x8192_S8192x128_1_0 := by
    dsimp only [Gen.V, Gen.hostOps0]; after_results
  exact (congrFun e (ix2 k j)).trans (transpose_apply _ _ _ (ix2 k j) (ix2 j k)
    (fun b => match b with | ⟨0, _⟩ => rfl | ⟨1, _⟩ => rfl))

/-- The second staged weight array is the second weight argument with its coordinates exchanged. -/
theorem V_v1_apply (c : Dev nD) (j : Fin 128) (k : Fin 8192) :
    V m c main_v1 (ix2 j k) = m ((c : Thread nD τ).loc main_arg3) (ix2 k j) := by
  have e : (V m c main_v1 : S128x8192.Idx → EReal)
      = transpose S128x8192 [1, 0] (m ((c : Thread nD τ).loc main_arg3)) transposes_S8192x128_S128x8192_1_0 := by
    dsimp only [Gen.V, Gen.hostOps0]; after_results
  exact (congrFun e (ix2 j k)).trans (transpose_apply _ _ _ (ix2 j k) (ix2 k j)
    (fun b => match b with | ⟨0, _⟩ => rfl | ⟨1, _⟩ => rfl))

/-- One entry of a block's result is the specification's entry of the whole array, as soon as every operand block
    reads the argument arrays where the result's batch row says: the batch block at that row, the two staged weight
    arrays with coordinates exchanged, the vectors as they are. -/
theorem out_of_reads (x0 : Vec Ideal S64x64x128 .f32) (x1 : Vec Ideal S8192x128 .f32) (x2 : Vec Ideal S128 .f32)
    (x3 : Vec Ideal S128x8192 .f32) (x4 : Vec Ideal S8192 .f32) (x5 x6 : Vec Ideal S128 .f32)
    (A0 : S4096x64x128.Idx → EReal) (A1 : S128x8192.Idx → EReal) (A2 : S128.Idx → EReal) (A3 : S8192x128.Idx → EReal)
    (A4 : S8192.Idx → EReal) (A5 A6 : S128.Idx → EReal) (y : S64x64x128.Idx) (i : S4096x64x128.Idx)
    (h0 : ∀ (s : Fin 64) (d : Fin 128), x0 (ix3 (y 0) s d) = A0 (ix3 (i 0) s d))
    (h1 : ∀ (j : Fin 128) (k : Fin 8192), x1 (ix2 k j) = A1 (ix2 j k))
    (h2 : ∀ j : Fin 128, x2 (ix1 j) = A2 (ix1 j))
    (h3 : ∀ (k : Fin 8192) (j : Fin 128), x3 (ix2 j k) = A3 (ix2 k j))
    (h4 : ∀ k : Fin 8192, x4 (ix1 k) = A4 (ix1 k))
    (h5 : ∀ j : Fin 128, x5 (ix1 j) = A5 (ix1 j))
    (h6 : ∀ j : Fin 128, x6 (ix1 j) = A6 (ix1 j))
    (hi1 : (i 1).val = (y 1).val) (hi2 : (i 2).val = (y 2).val) :
    out0_7 (F := Ideal) x0 x1 x2 x3 x4 x5 x6 y = Spec.G A0 A1 A2 A3 A4 A5 A6 i := by
  rw [ker_out]
  show _ = Spec.out (Spec.rowOf A0 (i 0)) (Spec.mat A1) (Spec.vec A2) (Spec.mat A3) (Spec.vec A4) (Spec.vec A5) (Spec.vec A6) (i 1) (i 2)
  have e0 : Spec.rowOf (B := 64) x0 (y 0) = Spec.rowOf A0 (i 0) := funext fun s => funext fun d => h0 s d
  have e1 : Spec.matT x1 = Spec.mat A1 := funext fun j => funext fun k => h1 j k
  have e2 : Spec.vec x2 = Spec.vec A2 := funext fun j => h2 j
  have e3 : Spec.matT x3 = Spec.mat A3 := funext fun k => funext fun j => h3 k j
  have e4 : Spec.vec x4 = Spec.vec A4 := funext fun k => h4 k
  have e5 : Spec.vec x5 = Spec.vec A5 := funext fun j => h5 j
  have e6 : Spec.vec x6 = Spec.vec A6 := funext fun j => h6 j
  have e7 : (y 1 : Fin 64) = i 1 := Fin.ext hi1.symm
  have e8 : (y 2 : Fin 128) = i 2 := Fin.ext hi2.symm
  rw [e0, e1, e2, e3, e4, e5, e6, e7, e8]

/-- What grid point t writes back is block t of the specification's array: the batch block of point t holds batch
    rows 64 t to 64 t + 63 of the first argument, every other operand block is its whole array, and the block's entry
    (y0, y1, y2) sits at (64 t + y0, y1, y2) of the result. -/
theorem flushed_eq (c : Dev nD) (t : Fin cfg0.N) :
    (dats m 0 c).flushed 7 t = ((cfg0.win 7).blk t).view.read (Elt Ideal)
      (Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))) := by
  rw [Value.flushed7]
  funext y
  show out0_7 (F := Ideal) (iblk m c 0 t) (iblk m c 1 t) (iblk m c 2 t) (iblk m c 3 t) (iblk m c 4 t) (iblk m c 5 t) (iblk m c 6 t) y
     = Spec.G _ _ _ _ _ _ _ (((cfg0.win 7).blk t).view.emb y)
  obtain ⟨a70, a71, a72, a00, a01, a02, a10, a11, a20, a30, a31, a40, a50, a60⟩ := idx_facts t
  refine out_of_reads _ _ _ _ _ _ _ _ _ _ _ _ _ _ y _ ?_ ?_ ?_ ?_ ?_ ?_ ?_ ?_ ?_
  · intro s d
    show V m c main_arg0 (((cfg0.win 0).blk t).view.emb (ix3 (y 0) s d)) = _
    rw [V_main_arg0]
    refine congrArg (m ((c : Thread nD τ).loc main_arg0)) (funext fun a => Fin.ext ?_)
    match a with
    | ⟨0, _⟩ => show win0_0.index t (0 : Fin 3) * 64 + 1 * (y 0).val = win0_7.index t (0 : Fin 3) * 64 + 1 * (y 0).val; omega
    | ⟨1, _⟩ => show win0_0.index t (1 : Fin 3) * 64 + 1 * s.val = s.val; omega
    | ⟨2, _⟩ => show win0_0.index t (2 : Fin 3) * 128 + 1 * d.val = d.val; omega
  · intro j k
    show V m c main_v0 (((cfg0.win 1).blk t).view.emb (ix2 k j)) = _
    refine Eq.trans (congrArg (V m c main_v0) (funext fun a => Fin.ext ?_)) (V_v0_apply m c k j)
    match a with
    | ⟨0, _⟩ => show win0_1.index t (0 : Fin 2) * 8192 + 1 * k.val = k.val; omega
    | ⟨1, _⟩ => show win0_1.index t (1 : Fin 2) * 128 + 1 * j.val = j.val; omega
  · intro j
    show V m c main_arg2 (((cfg0.win 2).blk t).view.emb (ix1 j)) = _
    rw [V_main_arg2]
    refine congrArg (m ((c : Thread nD τ).loc main_arg2)) (funext fun a => Fin.ext ?_)
    match a with
    | ⟨0, _⟩ => show win0_2.index t (0 : Fin 1) * 128 + 1 * j.val = j.val; omega
  · intro k j
    show V m c main_v1 (((cfg0.win 3).blk t).view.emb (ix2 j k)) = _
    refine Eq.trans (congrArg (V m c main_v1) (funext fun a => Fin.ext ?_)) (V_v1_apply m c j k)
    match a with
    | ⟨0, _⟩ => show win0_3.index t (0 : Fin 2) * 128 + 1 * j.val = j.val; omega
    | ⟨1, _⟩ => show win0_3.index t (1 : Fin 2) * 8192 + 1 * k.val = k.val; omega
  · intro k
    show V m c main_arg4 (((cfg0.win 4).blk t).view.emb (ix1 k)) = _
    rw [V_main_arg4]
    refine congrArg (m ((c : Thread nD τ).loc main_arg4)) (funext fun a => Fin.ext ?_)
    match a with
    | ⟨0, _⟩ => show win0_4.index t (0 : Fin 1) * 8192 + 1 * k.val = k.val; omega
  · intro j
    show V m c main_arg5 (((cfg0.win 5).blk t).view.emb (ix1 j)) = _
    rw [V_main_arg5]
    refine congrArg (m ((c : Thread nD τ).loc main_arg5)) (funext fun a => Fin.ext ?_)
    match a with
    | ⟨0, _⟩ => show win0_5.index t (0 : Fin 1) * 128 + 1 * j.val = j.val; omega
  · intro j
    show V m c main_arg6 (((cfg0.win 6).blk t).view.emb (ix1 j)) = _
    rw [V_main_arg6]
    refine congrArg (m ((c : Thread nD τ).loc main_arg6)) (funext fun a => Fin.ext ?_)
    match a with
    | ⟨0, _⟩ => show win0_6.index t (0 : Fin 1) * 128 + 1 * j.val = j.val; omega
  · show win0_7.index t (1 : Fin 3) * 64 + 1 * (y 1).val = (y 1).val; omega
  · show win0_7.index t (2 : Fin 3) * 128 + 1 * (y 2).val = (y 2).val; omega

/-- An index of the result array lies in point t's block exactly when each coordinate is in the block's range on
    its axis. -/
theorem mem_blk (t : Fin cfg0.N) (i : S4096x64x128.Idx) :
    i ∈ ((cfg0.win 7).blk t).view.set ↔ ∀ a : Fin 3, win0_7.index t a * S64x64x128.size a ≤ (i a).val ∧ (i a).val < win0_7.index t a * S64x64x128.size a + S64x64x128.size a := by
  show i ∈ ((View.whole main_v2).slice (win0_7.rect t)).set ↔ _
  rw [View.set_slice_whole, Rect.mem_set_unit]
  exact Iff.rfl

/-- Every index of the result array is in some point's block: batch row r belongs to point r / 64, whose block spans
    all 64 tokens and all 128 features. -/
theorem covered (i : S4096x64x128.Idx) :
    ∃ t : Fin cfg0.N, (cfg0.win 7).flush t = true ∧ i ∈ ((cfg0.win 7).blk t).view.set := by
  have hi0 : (i 0).val < 4096 := (i 0).isLt
  have hi1 : (i 1).val < 64 := (i 1).isLt
  have hi2 : (i 2).val < 128 := (i 2).isLt
  let t : Fin cfg0.N := ⟨(i 0).val / 64, by show (i 0).val / 64 < 64; omega⟩
  have ht : t.val = (i 0).val / 64 := rfl
  obtain ⟨a70, a71, a72, -⟩ := idx_facts t
  refine ⟨t, flush0_7 t, ?_⟩
  rw [mem_blk]
  intro a
  match a with
  | ⟨0, _⟩ => show win0_7.index t (0 : Fin 3) * 64 ≤ (i 0).val ∧ (i 0).val < win0_7.index t (0 : Fin 3) * 64 + 64; omega
  | ⟨1, _⟩ => show win0_7.index t (1 : Fin 3) * 64 ≤ (i 1).val ∧ (i 1).val < win0_7.index t (1 : Fin 3) * 64 + 64; omega
  | ⟨2, _⟩ => show win0_7.index t (2 : Fin 3) * 128 ≤ (i 2).val ∧ (i 2).val < win0_7.index t (2 : Fin 3) * 128 + 128; omega

/-- After the run the kernel's result array is the specification's function of the seven argument arrays as launched. -/
theorem final (c : Dev nD) :
    (dats m 0 c).arrAt 7 cfg0.N
      = Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  exact (dats m 0 c).arrAt_eq_of_cover 7 _ (fun t _ => flushed_eq m c t) covered

end Cert.KerBridge

end
-- ==== Proof.lean ====
/-
  The certificate of the fused attention + perceptron + LayerNorm kernel against its plain reference.

  Both programs compute, for every batch row on its own, the function `Spec.out` of that row (Proof/Spec.lean):
  softmax self-attention of the row's 64 tokens with themselves, a two-layer perceptron over the flattened
  row, their sum with the row, normalised over the 128 features and scaled and shifted.  The kernel does it
  for 64 batch rows per grid point, the reference for all 4096 at once; since no step couples two rows, the
  64 blocks the kernel writes tile the very array the reference computes.  No algebraic law beyond reading
  sums index by index is used, so the finiteness of the inputs is never opened.

  The three frames are the generated ones (the reference's is its generated run with the result dropped);
  the idealization rewrote nothing, so `preserves` is trivial; the value claim puts the kernel's run
  (its result array named block by block, then shown to be `Spec.G`) beside the reference's run (its composed
  term shown to be `Spec.G`) on arguments that agree.
-/
import proofs.«173511_j24764781429079_1_alg».proof.Defs
import proofs.«173511_j24764781429079_1_alg».proof.Proof.Gen.Kernel
import proofs.«173511_j24764781429079_1_alg».proof.Proof.Gen.Kernel.Skeleton
import proofs.«173511_j24764781429079_1_alg».proof.Proof.Gen.Kernel.Launch
import proofs.«173511_j24764781429079_1_alg».proof.Proof.Gen.Kernel.Points
import proofs.«173511_j24764781429079_1_alg».proof.Proof.Gen.Kernel.Frame
import proofs.«173511_j24764781429079_1_alg».proof.Proof.Gen.KernelIdeal
import proofs.«173511_j24764781429079_1_alg».proof.Proof.Gen.KernelIdeal.Skeleton
import proofs.«173511_j24764781429079_1_alg».proof.Proof.Gen.KernelIdeal.Launch
import proofs.«173511_j24764781429079_1_alg».proof.Proof.Gen.KernelIdeal.Points
import proofs.«173511_j24764781429079_1_alg».proof.Proof.Gen.KernelIdeal.Frame
import proofs.«173511_j24764781429079_1_alg».proof.Proof.Gen.ReferenceIdeal
import proofs.«173511_j24764781429079_1_alg».proof.Proof.Gen.Pre_finite_inputs
import proofs.«173511_j24764781429079_1_alg».proof.Proof.Gen.KernelIdeal.Value
import proofs.«173511_j24764781429079_1_alg».proof.Proof.Gen.ReferenceIdeal.Run
import proofs.«173511_j24764781429079_1_alg».proof.Proof.Gen.ReferenceIdeal.Read
import proofs.«173511_j24764781429079_1_alg».proof.Proof.RefOut
import proofs.«173511_j24764781429079_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, both programs end with the specification's array. -/
theorem algebraic : Cert.algebraic_KernelIdeal_ReferenceIdeal := by
  intro m ρ m' ρ' _ hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)), ?_, ?_⟩
  · exact (θ_run Cert.KernelIdeal.defs _ _).mono
      (fun r h c => ⟨(h c).1.trans (Cert.KerBridge.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, Cert.RefBridge.ref_out, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
